-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S16384x16 : Shape := ⟨2, ![16384, 16]⟩
abbrev S2x16384 : Shape := ⟨2, ![2, 16384]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_

variable [Facts]

def fn {F : FTy → Type} [FloatOps F] (main_arg0 : FVec F S4096x8192 .f32) (main_arg1 : FVec F S16384x16 .f32) (main_arg2 : IVec S2x16384 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  main_v8
-- ==== Kernel.lean ====
abbrev S4096x8192 : Shape := ⟨2, ![4096, 8192]⟩
abbrev S16384x16 : Shape := ⟨2, ![16384, 16]⟩
abbrev S2x16384 : Shape := ⟨2, ![2, 16384]⟩
abbrev S16x4 : Shape := ⟨2, ![16, 4]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S4x16384 : Shape := ⟨2, ![4, 16384]⟩
abbrev S1x16384 : Shape := ⟨2, ![1, 16384]⟩
abbrev S4096x16384 : Shape := ⟨2, ![4096, 16384]⟩
abbrev S2048x1024 : Shape := ⟨2, ![2048, 1024]⟩
abbrev S1x512 : Shape := ⟨2, ![1, 512]⟩
abbrev S4x512 : Shape := ⟨2, ![4, 512]⟩
abbrev S2048x512 : Shape := ⟨2, ![2048, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 61
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S16384x16, .f32⟩
  | .hbm, ⟨2, _⟩ => ⟨S2x16384, .i32⟩
  | .hbm, ⟨3, _⟩ => ⟨S16x4, .f32⟩
  | .hbm, ⟨4, _⟩ => ⟨S_, .f32⟩
  | .hbm, ⟨5, _⟩ => ⟨S16384x16, .f32⟩
  | .hbm, ⟨6, _⟩ => ⟨S16384x16, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16, .f32⟩
  | .hbm, ⟨20, _⟩ => ⟨S16384x16, .f32⟩
  | .hbm, ⟨21, _⟩ => ⟨S16384x4, .f32⟩
  | .hbm, ⟨22, _⟩ => ⟨S4x16384, .f32⟩
  | .hbm, ⟨23, _⟩ => ⟨S1x16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S1x16384, .i32⟩
  | .hbm, ⟨41, _⟩ => ⟨S1x16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S1x16384, .i32⟩
  | .hbm, ⟨59, _⟩ => ⟨S4096x8192, .bf16⟩
  | .hbm, ⟨60, _⟩ => ⟨S4096x16384, .f32⟩
  | .local _ .vmem, ⟨0, _⟩ => ⟨S2048x1024, .bf16⟩
  | .local _ .vmem, ⟨1, _⟩ => ⟨S2048x1024, .bf16⟩
  | .local _ .vmem, ⟨2, _⟩ => ⟨S1x512, .i32⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S4x512, .f32⟩
  | .local _ .vmem, ⟨7, _⟩ => ⟨S4x512, .f32⟩
  | .local _ .vmem, ⟨8, _⟩ => ⟨S2048x512, .f32⟩
  | .local _ .vmem, ⟨9, _⟩ => ⟨S2048x512, .f32⟩
  | .local _ .vmem, ⟨10, _⟩ => ⟨S2048x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_c_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_c_10 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S16384x16 : S_.BroadcastsInDim S16384x16 (![] : Fin 0 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  transposes_S16384x4_S4x16384_1_0 : S16384x4.Transposes [1, 0] S4x16384
  slices_S2x16384_S1x16384_0_0 : S2x16384.Slices ![0, 0] S1x16384
  shapeCasts_S1x16384_S16384 : S1x16384.ShapeCasts S16384
  shapeCasts_S16384_S1x16384 : S16384.ShapeCasts S1x16384
  slices_S2x16384_S1x16384_1_0 : S2x16384.Slices ![1, 0] S1x16384
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S1024x1_d0_w32 : S1024x1.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  concatenates_S1x512_S1x512_S1x1024_d1 : Shape.Concatenates [S1x512, S1x512] S1x1024 1
  broadcasts_S1024x1_S1024x1024 : S1024x1.Broadcasts S1024x1024
  broadcasts_S1x1024_S1024x1024 : S1x1024.Broadcasts S1024x1024
  natLt_1_32 : 1 < 32
  inb_S2048x1024_S2048x512_0_0 : ∀ a, (![0, 0] : Fin 2 → Nat) a + S2048x512.size a ≤ S2048x1024.size a
  h_S2048x512 : 0 < S2048x512.numel
  inb_S2048x1024_S2048x512_0_512 : ∀ a, (![0, 512] : Fin 2 → Nat) a + S2048x512.size a ≤ S2048x1024.size a
  inb_S4x512_S1x512_0_0 : ∀ a, (![0, 0] : Fin 2 → Nat) a + S1x512.size a ≤ S4x512.size a
  inb_S4x512_S1x512_1_0 : ∀ a, (![1, 0] : Fin 2 → Nat) a + S1x512.size a ≤ S4x512.size a
  inb_S4x512_S1x512_2_0 : ∀ a, (![2, 0] : Fin 2 → Nat) a + S1x512.size a ≤ S4x512.size a
  inb_S4x512_S1x512_3_0 : ∀ a, (![3, 0] : Fin 2 → Nat) a + S1x512.size a ≤ S4x512.size a
  broadcasts_S1x512_S2048x512 : S1x512.Broadcasts S2048x512
  inb_S2048x512_S2048x512_0_0 : ∀ a, (![0, 0] : Fin 2 → Nat) a + S2048x512.size a ≤ S2048x512.size a
  dot_S16384x16_S16x4_S16384x4_1_0_0_1_n_n_wf : DotDims.WF S16384x16 S16x4 S16384x4 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x8192.size a
  hwx0_0 : ∀ i : grid0.Coords, EltTy.bits .bf16 = 32 ∨ (Rect.block (s := S4096x8192) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x16384.size a
  hwx0_1 : ∀ i : grid0.Coords, EltTy.bits .i32 = 32 ∨ (Rect.block (s := S1x16384) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .i32 = 32 ∨ (Rect.block (s := S1x16384) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x16384.size a
  hwx0_3 : ∀ i : grid0.Coords, EltTy.bits .f32 = 32 ∨ (Rect.block (s := S4x16384) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x16384.size a
  hwx0_4 : ∀ i : grid0.Coords, EltTy.bits .f32 = 32 ∨ (Rect.block (s := S4096x16384) S2048x512.size (cc0_transform_4 i) (hinb0_4 i)).WholeWords (EltTy.packing .f32)

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v33) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x8192 : Shape := ⟨2, ![4096, 8192]⟩
abbrev S16384x16 : Shape := ⟨2, ![16384, 16]⟩
abbrev S2x16384 : Shape := ⟨2, ![2, 16384]⟩
abbrev S16x4 : Shape := ⟨2, ![16, 4]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S1x16384 : Shape := ⟨2, ![1, 16384]⟩
abbrev S4096x16384 : Shape := ⟨2, ![4096, 16384]⟩

abbrev nBuf : Space → Nat
  | .hbm => 67
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S16384x16, .f32⟩
  | .hbm, ⟨2, _⟩ => ⟨S2x16384, .i32⟩
  | .hbm, ⟨3, _⟩ => ⟨S16x4, .f32⟩
  | .hbm, ⟨4, _⟩ => ⟨S_, .f32⟩
  | .hbm, ⟨5, _⟩ => ⟨S16384x16, .f32⟩
  | .hbm, ⟨6, _⟩ => ⟨S16384x16, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16, .f32⟩
  | .hbm, ⟨20, _⟩ => ⟨S16384x16, .f32⟩
  | .hbm, ⟨21, _⟩ => ⟨S16384x4, .f32⟩
  | .hbm, ⟨22, _⟩ => ⟨S1x16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S4096x16384, .f32⟩
  | .hbm, ⟨33, _⟩ => ⟨S1x16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S4096x16384, .f32⟩
  | .hbm, ⟨44, _⟩ => ⟨S16384x1, .f32⟩
  | .hbm, ⟨45, _⟩ => ⟨S16384, .f32⟩
  | .hbm, ⟨46, _⟩ => ⟨S16384x1, .f32⟩
  | .hbm, ⟨47, _⟩ => ⟨S16384, .f32⟩
  | .hbm, ⟨48, _⟩ => ⟨S16384x1, .f32⟩
  | .hbm, ⟨49, _⟩ => ⟨S16384, .f32⟩
  | .hbm, ⟨50, _⟩ => ⟨S16384x1, .f32⟩
  | .hbm, ⟨51, _⟩ => ⟨S16384, .f32⟩
  | .hbm, ⟨52, _⟩ => ⟨S1x16384, .f32⟩
  | .hbm, ⟨53, _⟩ => ⟨S4096x16384, .f32⟩
  | .hbm, ⟨54, _⟩ => ⟨S4096x16384, .f32⟩
  | .hbm, ⟨55, _⟩ => ⟨S1x16384, .f32⟩
  | .hbm, ⟨56, _⟩ => ⟨S4096x16384, .f32⟩
  | .hbm, ⟨57, _⟩ => ⟨S4096x16384, .f32⟩
  | .hbm, ⟨58, _⟩ => ⟨S1x16384, .f32⟩
  | .hbm, ⟨59, _⟩ => ⟨S4096x16384, .f32⟩
  | .hbm, ⟨60, _⟩ => ⟨S4096x16384, .f32⟩
  | .hbm, ⟨61, _⟩ => ⟨S4096x16384, .f32⟩
  | .hbm, ⟨62, _⟩ => ⟨S4096x16384, .f32⟩
  | .hbm, ⟨63, _⟩ => ⟨S1x16384, .f32⟩
  | .hbm, ⟨64, _⟩ => ⟨S4096x16384, .f32⟩
  | .hbm, ⟨65, _⟩ => ⟨S4096x16384, .f32⟩
  | .hbm, ⟨66, _⟩ => ⟨S4096x16384, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]

class Facts₀ : Prop where
  bcast_S_S16384x16 : S_.BroadcastsInDim S16384x16 (![] : Fin 0 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S2x16384_S1x16384_0_0 : S2x16384.Slices ![0, 0] S1x16384
  shapeCasts_S1x16384_S16384 : S1x16384.ShapeCasts S16384
  slices_S2x16384_S1x16384_1_0 : S2x16384.Slices ![1, 0] S1x16384
  slices_S16384x4_S16384x1_0_0 : S16384x4.Slices ![0, 0] S16384x1
  shapeCasts_S16384x1_S16384 : S16384x1.ShapeCasts S16384
  slices_S16384x4_S16384x1_0_1 : S16384x4.Slices ![0, 1] S16384x1
  slices_S16384x4_S16384x1_0_2 : S16384x4.Slices ![0, 2] S16384x1
  slices_S16384x4_S16384x1_0_3 : S16384x4.Slices ![0, 3] S16384x1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  dot_S16384x16_S16x4_S16384x4_1_0_0_1_n_n_wf : DotDims.WF S16384x16 S16x4 S16384x4 [1] [0] [0] [1] [] []
  gather_S4096x8192_S16384x1_S4096x16384_0_1_n_n_1_1_40961_wf : GatherDims.WF S4096x8192 S16384x1 S4096x16384 [0] [1] [] [1] [] 1 ![4096, 1]

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def gather_S4096x8192_S16384x1_S4096x16384_0_1_n_n_1_1_40961 : GatherDims S4096x8192 S16384x1 S4096x16384 where
  offsetDims := [0]
  collapsedSliceDims := [1]
  operandBatchingDims := []
  startIndicesBatchingDims := []
  startIndexMap := [1]
  indexVectorDim := 1
  sliceSizes := ![4096, 1]
  wf := gather_S4096x8192_S16384x1_S4096x16384_0_1_n_n_1_1_40961_wf

class Facts : Prop extends Facts₀ where

variable [Facts]
-- ==== Proof.LibGatherRead.lean ====
/-
  `stablehlo.gather` READ AT AN INDEX, for four sets of dimension numbers that jnp's indexing prints and the
  library's `Predicate.gather_take` (a rank-1 table by a column of positions) does not cover:

  * `gather_cols_apply`   — `t[:, idx]` of a table [R, N] by n column numbers: result (r, p) is the table at row r, the
    column numbered `idx[p]`;
  * `gather_mid_apply`    — `t[:, idx]` of a table [1, N, C] by n numbers on the middle axis: result (0, p, k) is the
    table at (0, `idx[p]`, k);
  * `gather_cell3_apply`  — `t[i, j, k]` of a table [A, B, C] by n coordinate triples: result p is the table at the
    triple in row p of the start indices;
  * `gather_lead_cell3_apply` — `t[:, i, j, k]` of a table [R, A, B, C] by n coordinate triples: result (r, p) is the
    table at (r, the triple in row p).

  In each the start indices are an [n, 1] or [n, 3] array with the index vector on axis 1, and every start index is read as
  StableHLO reads it: SIGNED, and CLAMPED to its axis (a negative one reads position 0, one past the end the last position).
  Each lemma takes the dimension numbers as hypotheses (`rfl` on a printed record), so it applies to any record with those
  numbers whatever its name.
-/
import Idealize.ShloMosaic.PureOps
import Idealize.ShloMosaic.Lib.ValueIdx

namespace Cert.LibGatherRead

open Idealize.ShloMosaic Idealize.ShloMosaic.ValueIdx

/-- The position a start index `w` selects on an axis of `N` positions: read signed, clamped to `[0, N − 1]`. -/
def pos {w : Nat} (N : Nat) (hN : 0 < N) (i : BitVec w) : Fin N := ⟨min i.toInt.toNat (N - 1), by omega⟩

/-- An operand axis that is start-indexed and collapsed (slice size 1) reads the start index's component for it, signed
    and clamped to the axis. -/
theorem operandIdx_indexed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- An operand axis that is kept whole and not start-indexed reads the result's coordinate on its offset axis. -/
theorem operandIdx_kept {s si t : Shape} {w : Nat} (d : GatherDims s si t) (j : t.Idx) (idx : IVec si w)
    (a : Fin s.rank) (hm : a ∉ d.startIndexMap) (hk : a ∈ d.sKept) :
    (d.operandIdx j idx a).val
      = (j (d.offsetDims[d.sKept.idxOf a]'(by rw [d.offset_length]; exact List.idxOf_lt_length_iff.2 hk))).val := by
  have hb := ((d.mem_sKept a).1 hk).2
  show d.start j idx a + d.batchCoord j a + d.offCoord j a = _
  rw [d.batchCoord_eq_zero j a hb, Nat.add_zero]
  unfold GatherDims.start GatherDims.offCoord
  rw [dif_neg hm, dif_pos hk, Nat.zero_add]

/-- Start indices [n, m] with the index vector on axis 1: the start-indices index of component `k` for a result index
    whose first batch coordinate is `p` is (p, k). -/
theorem siIdx_col {s t : Shape} {n m : Nat} (d : GatherDims s ⟨2, ![n, m]⟩ t) (hivd : d.indexVectorDim = 1)
    (j : t.Idx) (p : Fin n) (hp : ∀ h : 0 < d.batchDims.length, (j (d.batchDims[0]'h)).val = p.val)
    (c : Fin d.startIndexMap.length) (k : Fin m) (hck : c.val = k.val) :
    d.siIdx j c = ix2 p k := by
  funext b
  match b with
  | ⟨0, _⟩ =>
    unfold GatherDims.siIdx
    rw [dif_neg (by rw [hivd]; simp)]
    unfold GatherDims.siCoord
    apply Fin.ext
    simp only [Fin.val_cast]
    have key : ∀ (i : Nat) (h : i < d.batchDims.length), i = 0 → (j (d.batchDims[i]'h)).val = p.val := by
      intro i h hi; subst hi; exact hp h
    apply key
    show List.idxOf _ (List.filter (fun b : Fin 2 => decide (b.val ≠ d.indexVectorDim)) (List.finRange 2)) = 0
    rw [hivd]; rfl
  | ⟨1, _⟩ =>
    unfold GatherDims.siIdx
    rw [dif_pos (by rw [hivd])]
    apply Fin.ext
    exact hck

/-- COLUMNS of a table [R, N] by n column numbers (`t[:, idx]`). -/
theorem gather_cols_apply {α : Type} {R N n w : Nat} (hN : 0 < N)
    (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) :
    Host.gather d x idx (ix2 r p) = x (ix2 r (pos N hN (idx (ix2 p (0 : Fin 1))))) := by
  unfold Host.gather
  congr 1
  funext a
  apply Fin.ext
  have hb : ∀ a : Fin 2, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the rows are kept whole: the result's coordinate on its one offset axis
    have hk : (⟨0, by decide⟩ : Fin 2) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    -- the columns are start-indexed and collapsed: the column number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl

/-- The MIDDLE axis of a table [1, N, C] by n numbers (`t[:, idx]` with a leading axis of extent 1). -/
theorem gather_mid_apply {α : Type} {N C n w : Nat} (hN : 0 < N)
    (d : GatherDims ⟨3, ![1, N, C]⟩ ⟨2, ![n, 1]⟩ ⟨3, ![1, n, C]⟩)
    (hoff : d.offsetDims = [0, 2]) (hcoll : d.collapsedSliceDims = [1]) (hob : d.operandBatchingDims = [])
    (hsim : d.startIndexMap = [1]) (hivd : d.indexVectorDim = 1)
    (x : (⟨3, ![1, N, C]⟩ : Shape).Idx → α) (idx : IVec ⟨2, ![n, 1]⟩ w) (p : Fin n) (k : Fin C) :
    Host.gather d x idx (ix3 (0 : Fin 1) p k) = x (ix3 (0 : Fin 1) (pos N hN (idx (ix2 p (0 : Fin 1)))) k) := by
  unfold Host.gather
  congr 1
  funext a
  apply Fin.ext
  have hb : ∀ a : Fin 3, a ∉ d.operandBatchingDims := fun a => by rw [hob]; exact List.not_mem_nil
  -- the result's batch axis is axis 1 (axes 0 and 2 are the offset axes): its coordinate is p
  have hbd : d.batchDims = [1] := by
    show Shape.kept _ d.offsetDims = [1]
    rw [hoff]; rfl
  have hp : ∀ h : 0 < d.batchDims.length,
      ((ix3 (0 : Fin 1) p k : (⟨3, ![1, n, C]⟩ : Shape).Idx) (d.batchDims[0]'h)).val = p.val := by
    have key : ∀ (l : List (Fin 3)) (h : 0 < l.length), l = [1] →
        ((ix3 (0 : Fin 1) p k : (⟨3, ![1, n, C]⟩ : Shape).Idx) (l[0]'h)).val = p.val := by
      intro l h hl; subst hl; rfl
    exact fun h => key _ h hbd
  -- the operand's kept axes are 0 and 2, read by the result's offset axes 0 and 2 in that order
  have hsk : d.sKept = [0, 2] := by
    show Shape.kept _ (d.collapsedSliceDims ++ d.operandBatchingDims) = [0, 2]
    rw [hcoll, hob]; rfl
  have key : ∀ (l : List (Fin 3)) (i i' : Nat) (h : i < l.length), l = [0, 2] → i = i' → (h' : i' < 2) →
      ((ix3 (0 : Fin 1) p k : (⟨3, ![1, n, C]⟩ : Shape).Idx) (l[i]'h)).val
        = ((ix3 (0 : Fin 1) p k : (⟨3, ![1, n, C]⟩ : Shape).Idx) (([0, 2] : List (Fin 3))[i']'h')).val := by
    intro l i i' h hl hi h'; subst hl; subst hi; rfl
  match a with
  | ⟨0, _⟩ =>
    have hk : (⟨0, by decide⟩ : Fin 3) ∈ d.sKept := (d.mem_sKept _).2 ⟨by rw [hcoll]; simp, hb _⟩
    rw [operandIdx_kept d _ idx _ (by rw [hsim]; simp) hk]
    exact key _ _ 0 _ hoff (by rw [hsk]; rfl) (by decide)
  | ⟨1, _⟩ =>
    -- the middle axis is start-indexed and collapsed: the number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl
  | ⟨2, _⟩ =>
    have hk : (⟨2, by decide⟩ : Fin 3) ∈ d.sKept := (d.mem_sKept _).2 ⟨by rw [hcoll]; simp, hb _⟩
    rw [operandIdx_kept d _ idx _ (by rw [hsim]; simp) hk]
    exact key _ _ 1 _ hoff (by rw [hsk]; rfl) (by decide)

/-- ONE ELEMENT of a table [A, B, C] per coordinate triple (`t[i, j, k]`). -/
theorem gather_cell3_apply {α : Type} {A B C n w : Nat} (hA : 0 < A) (hB : 0 < B) (hC : 0 < C)
    (d : GatherDims ⟨3, ![A, B, C]⟩ ⟨2, ![n, 3]⟩ ⟨1, ![n]⟩)
    (hoff : d.offsetDims = []) (hcoll : d.collapsedSliceDims = [0, 1, 2]) (hob : d.operandBatchingDims = [])
    (hsim : d.startIndexMap = [0, 1, 2]) (hivd : d.indexVectorDim = 1)
    (x : (⟨3, ![A, B, C]⟩ : Shape).Idx → α) (idx : IVec ⟨2, ![n, 3]⟩ w) (p : Fin n) :
    Host.gather d x idx (ix1 p)
      = x (ix3 (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 3, a ∉ d.operandBatchingDims := fun a => by rw [hob]; exact List.not_mem_nil
  -- the result's one axis is its batch axis: a rank-1 index has the same coordinate wherever it is read
  have hp : ∀ h : 0 < d.batchDims.length, ((ix1 p : (⟨1, ![n]⟩ : Shape).Idx) (d.batchDims[0]'h)).val = p.val := fun h => by
    have e : ∀ X : Fin 1, ((ix1 p : (⟨1, ![n]⟩ : Shape).Idx) X).val = p.val := fun X => by
      obtain rfl : X = 0 := Subsingleton.elim _ _
      rfl
    exact e _
  match a with
  | ⟨0, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨1, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨2, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

/-- The LEADING axis whole, one element of the other three per coordinate triple (`t[:, i, j, k]` of a table [R, A, B, C]). -/
theorem gather_lead_cell3_apply {α : Type} {R A B C n w : Nat} (hA : 0 < A) (hB : 0 < B) (hC : 0 < C)
    (d : GatherDims ⟨4, ![R, A, B, C]⟩ ⟨2, ![n, 3]⟩ ⟨2, ![R, n]⟩)
    (hoff : d.offsetDims = [0]) (hcoll : d.collapsedSliceDims = [1, 2, 3]) (hob : d.operandBatchingDims = [])
    (hsim : d.startIndexMap = [1, 2, 3]) (hivd : d.indexVectorDim = 1)
    (x : (⟨4, ![R, A, B, C]⟩ : Shape).Idx → α) (idx : IVec ⟨2, ![n, 3]⟩ w) (r : Fin R) (p : Fin n) :
    Host.gather d x idx (ix2 r p)
      = x (ix4 r (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 4, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the kept axis: the result's coordinate on its one offset axis
    have hk : (⟨0, by decide⟩ : Fin 4) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨2, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨3, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

end Cert.LibGatherRead
-- ==== Proof.Spec.lean ====
/-
  The mathematics both programs compute, stated once, over literal shapes.

  Output (i, j) is a bilinear form in two entries of row i of x:
      out (i, j) = c0 j + ca j · a + cb j · b + cab j · (a · b),   a = x (i, col (idx (0, j))),  b = x (i, col (idx (1, j))),
  where the four coefficients of column j are row j of a [16384, 4] array, and `col w` is the column a signed 32-bit
  column number w selects: a negative w is first moved up by 8192 (Python's wrap), and the result is read signed and
  clamped into [0, 8191].

  One program finds the two entries by a gather, whose start index is clamped by the gather itself; the other clamps the
  wrapped number into a word (`clipW`), compares it with every column number 1024·k + r of a tile of x, and sums the row of
  x against that one-hot column (`hot`): the sum has exactly one non-zero term, the entry at `col w`.
-/
import Idealize.ShloMosaic.PureOps.Ideal
import Idealize.ShloMosaic.Lib.ValueIdx
import proofs.«405620_j34368328302783_3_alg».proof.Proof.LibGatherRead

noncomputable section

open scoped BigOperators

namespace Cert.Spec

open Idealize.ShloMosaic Idealize.ShloMosaic.ValueIdx

/-- Python's wrap of a negative column number: w + 8192 when w < 0 (signed), else w. -/
def wrapW (w : BitVec 32) : BitVec 32 := Scalar.select (IntOp.cmpi .slt w 0#32) (IntOp.addi w 8192#32) w

/-- The column of x a column number selects: wrapped, read signed, clamped to [0, 8191]. -/
def col (w : BitVec 32) : Fin 8192 := Cert.LibGatherRead.pos 8192 (by decide) (wrapW w)

/-- The same column as a word: the wrapped number clamped (signed) between 0 and 8191. -/
def clipW (w : BitVec 32) : BitVec 32 := IntOp.minsi 8191#32 (IntOp.maxsi 0#32 (wrapW w))

/-- Two rows of 512 column numbers side by side: entry q of the 1024 is entry q of the first row for q < 512 and entry
    q − 512 of the second otherwise. -/
def cat (a b : (⟨2, ![1, 512]⟩ : Shape).Idx → BitVec 32) (q : Fin 1024) : BitVec 32 :=
  if h : q.val < 512 then a (ix2 (0 : Fin 1) (⟨q.val, h⟩ : Fin 512)) else b (ix2 (0 : Fin 1) (⟨q.val - 512, by omega⟩ : Fin 512))

/-- Entry (r, ·) of the one-hot tile at K-step k against the column word w: 1 when the tile's column number
    r + 1024·k (as a 32-bit word) is w, else 0 — the comparison's bit, widened and read as a real. -/
def hot (k : Nat) (r : Fin 1024) (w : BitVec 32) : EReal :=
  (((((IntOp.cmpi .eq (IntOp.addi (BitVec.ofNat 32 r.val) (IntOp.muli (BitVec.ofNat 32 k) 1024#32)) w).setWidth 32).toInt : ℤ) : ℝ) : EReal)

/-- One output entry. -/
def specAt (X : (⟨2, ![4096, 8192]⟩ : Shape).Idx → EReal) (CO : (⟨2, ![16384, 4]⟩ : Shape).Idx → EReal)
    (I : (⟨2, ![2, 16384]⟩ : Shape).Idx → BitVec 32) (p : Fin 4096) (q : Fin 16384) : EReal :=
  CO (ix2 q (0 : Fin 4)) + CO (ix2 q (1 : Fin 4)) * X (ix2 p (col (I (ix2 (0 : Fin 2) q))))
    + CO (ix2 q (2 : Fin 4)) * X (ix2 p (col (I (ix2 (1 : Fin 2) q))))
    + CO (ix2 q (3 : Fin 4)) * (X (ix2 p (col (I (ix2 (0 : Fin 2) q)))) * X (ix2 p (col (I (ix2 (1 : Fin 2) q)))))

/-- The whole output array. -/
def spec (X : (⟨2, ![4096, 8192]⟩ : Shape).Idx → EReal) (CO : (⟨2, ![16384, 4]⟩ : Shape).Idx → EReal)
    (I : (⟨2, ![2, 16384]⟩ : Shape).Idx → BitVec 32) : (⟨2, ![4096, 16384]⟩ : Shape).Idx → EReal :=
  fun j => specAt X CO I (j 0) (j 1)

theorem spec_apply (X : (⟨2, ![4096, 8192]⟩ : Shape).Idx → EReal) (CO : (⟨2, ![16384, 4]⟩ : Shape).Idx → EReal)
    (I : (⟨2, ![2, 16384]⟩ : Shape).Idx → BitVec 32) (p : Fin 4096) (q : Fin 16384) :
    spec X CO I (ix2 p q) = specAt X CO I p q := rfl

/-! ## The column as a word -/

theorem clip_toNat (v : BitVec 32) : (IntOp.minsi 8191#32 (IntOp.maxsi 0#32 v)).toNat = min v.toInt.toNat 8191 := by
  unfold IntOp.minsi IntOp.maxsi
  have h1 := BitVec.toInt_eq_toNat_cond v
  have h2 := v.isLt
  have e0 : (0#32 : BitVec 32).toInt = 0 := by decide
  have e1 : (8191#32 : BitVec 32).toInt = 8191 := by decide
  have t0 : (0#32 : BitVec 32).toNat = 0 := by decide
  have t1 : (8191#32 : BitVec 32).toNat = 8191 := by decide
  simp only [BitVec.slt, decide_eq_true_eq, e0, e1]
  by_cases hv : v.toInt < 0
  · rw [if_pos hv, e0, if_neg (by omega), t0]; omega
  · rw [if_neg hv]
    by_cases hb : (8191 : Int) < v.toInt
    · rw [if_pos hb, t1]; omega
    · rw [if_neg hb]; split at h1 <;> omega

/-- The clamped word, read unsigned, is the column. -/
theorem clipW_toNat (w : BitVec 32) : (clipW w).toNat = (col w).val := clip_toNat (wrapW w)

/-- A column number below 8192, as a word, is the clamped word exactly when it is the column. -/
theorem ofNat_eq_clipW_iff (w : BitVec 32) (n : Nat) (hn : n < 8192) : BitVec.ofNat 32 n = clipW w ↔ n = (col w).val := by
  rw [← clipW_toNat, ← BitVec.toNat_inj, BitVec.toNat_ofNat, Nat.mod_eq_of_lt (by omega)]

/-- The one-hot entry against a clamped word: 1 at the tile column that is the selected column, 0 elsewhere. -/
theorem hot_clipW (k : Nat) (hk : k < 8) (r : Fin 1024) (w : BitVec 32) :
    hot k r (clipW w) = if 1024 * k + r.val = (col w).val then 1 else 0 := by
  have hr := r.isLt
  have e : IntOp.addi (BitVec.ofNat 32 r.val) (IntOp.muli (BitVec.ofNat 32 k) 1024#32) = BitVec.ofNat 32 (1024 * k + r.val) := by
    unfold IntOp.addi IntOp.muli
    apply BitVec.eq_of_toNat_eq
    simp only [BitVec.toNat_add, BitVec.toNat_mul, BitVec.toNat_ofNat]
    omega
  unfold hot
  rw [e]
  have c1 : ((BitVec.ofBool true).setWidth 32).toInt = 1 := by decide
  have c0 : ((BitVec.ofBool false).setWidth 32).toInt = 0 := by decide
  show ((((BitVec.ofBool (BitVec.ofNat 32 (1024 * k + r.val) == clipW w)).setWidth 32).toInt : ℝ) : EReal) = _
  by_cases h : 1024 * k + r.val = (col w).val
  · have hb : (BitVec.ofNat 32 (1024 * k + r.val) == clipW w) = true := beq_iff_eq.2 ((ofNat_eq_clipW_iff w _ (by omega)).2 h)
    rw [if_pos h, hb, c1]
    norm_num
  · have hne : ¬ BitVec.ofNat 32 (1024 * k + r.val) = clipW w := fun hh => h ((ofNat_eq_clipW_iff w _ (by omega)).1 hh)
    have hb : (BitVec.ofNat 32 (1024 * k + r.val) == clipW w) = false := beq_false_of_ne hne
    rw [if_neg h, hb, c0]
    norm_num

/-- A row of x summed against the one-hot column, tile by tile over the 8 tiles: the entry at the selected column. -/
theorem sum_hot (f : Fin 8192 → EReal) (w : BitVec 32) :
    (∑ s ∈ Finset.range 8, ∑ r : Fin 1024, (if h : 1024 * s + r.val < 8192 then f ⟨1024 * s + r.val, h⟩ else 0) * hot s r (clipW w))
      = f (col w) := by
  have hn := (col w).isLt
  have hs0 : (col w).val / 1024 ∈ Finset.range 8 := Finset.mem_range.2 (by omega)
  rw [Finset.sum_eq_single_of_mem ((col w).val / 1024) hs0]
  · rw [Finset.sum_eq_single (⟨(col w).val % 1024, Nat.mod_lt _ (by decide)⟩ : Fin 1024)]
    · have hlt : 1024 * ((col w).val / 1024) + (col w).val % 1024 < 8192 := by omega
      rw [dif_pos hlt, hot_clipW _ (by omega), if_pos (by show 1024 * ((col w).val / 1024) + (col w).val % 1024 = _; omega), mul_one]
      congr 1
      apply Fin.ext
      show 1024 * ((col w).val / 1024) + (col w).val % 1024 = _
      omega
    · intro r _ hr
      rw [hot_clipW _ (by omega), if_neg, mul_zero]
      intro h
      apply hr
      apply Fin.ext
      show r.val = (col w).val % 1024
      omega
    · intro h; exact absurd (Finset.mem_univ _) h
  · intro s hs hne
    have hs' := Finset.mem_range.1 hs
    apply Finset.sum_eq_zero
    intro r _
    have hr := r.isLt
    rw [hot_clipW _ hs', if_neg, mul_zero]
    intro h
    apply hne
    omega

end Cert.Spec

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.KernPay.lean ====
/-
  The kernel body's three stored values read at an index, at the ideal instance.

  * The reset value is 0 everywhere.
  * The accumulator update at K-step k: entry (p, q) of the new accumulator is the old entry plus the row p of the x tile
    summed against column q of the one-hot tile — column q compares the tile's column numbers r + 1024·k with entry q of
    the two rows of column words laid side by side.
  * The output tile: entry (p, q) is c0 q + ca q · a + cb q · b + cab q · (a · b) with a, b the two halves' entries (p, q)
    and the coefficients' rows read at column q.
-/
import proofs.«405620_j34368328302783_3_alg».proof.Proof.Gen.KernelIdeal.Skeleton
import proofs.«405620_j34368328302783_3_alg».proof.Proof.Spec
import proofs.«405620_j34368328302783_3_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KPay

open Cert.KernelIdeal Cert.KernelIdeal.Gen Idealize.ShloMosaic Idealize.ShloMosaic.ValueIdx

/-! ## The layout operations of the body, each read at an index given by coordinates -/

/-- A column [a, 1] broadcast to [a, b] reads, at (r, c), the column's entry r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The tile's column numbers: entry (r, 0) of the row counter plus a splat word w is the word of r plus w. -/
theorem colno_apply (w : BitVec 32) (r : Fin 1024) (u : Fin 1) :
    addi (iota .tc S1024x1 32 [0] iota_S1024x1_d0_w32) (broadcast S1024x1 w) (ix2 r u)
      = IntOp.addi (BitVec.ofNat 32 r.val) w := by
  show IntOp.addi (iota .tc S1024x1 32 [0] iota_S1024x1_d0_w32 (ix2 r u)) w = _
  rw [iota_single_apply]

/-- Two rows of 512 words laid side by side, read at (0, q): the first row's entry q below 512, the second's entry
    q − 512 from there on. -/
theorem cat_apply (a b : S1x512.Idx → BitVec 32) (q : Fin 1024) :
    concatenate S1x1024 1 [⟨S1x512, a⟩, ⟨S1x512, b⟩] concatenates_S1x512_S1x512_S1x1024_d1 (ix2 (0 : Fin 1) q)
      = Cert.Spec.cat a b q := by
  unfold Cert.Spec.cat
  split
  · next h =>
    refine concatenate_pair_apply_left (1 : Fin 2) a b concatenates_S1x512_S1x512_S1x1024_d1 (ix2 (0 : Fin 1) q) rfl
      (ix2 (0 : Fin 1) (⟨q.val, h⟩ : Fin 512)) fun ax => ?_
    match ax with
    | ⟨0, _⟩ => rfl
    | ⟨1, _⟩ => rfl
  · next h =>
    refine concatenate_pair_apply_right (1 : Fin 2) a b concatenates_S1x512_S1x512_S1x1024_d1 (ix2 (0 : Fin 1) q) rfl rfl
      (ix2 (0 : Fin 1) (⟨q.val - 512, by omega⟩ : Fin 512)) (fun ax hax => ?_) ?_
    · match ax with
      | ⟨0, _⟩ => rfl
      | ⟨1, _⟩ => exact absurd rfl hax
    · show q.val - 512 + 512 = q.val
      omega

/-- Entry (r, q) of the one-hot tile at K-step k: the tile's column number r + 1024·k compared with entry q of the two
    rows of column words, the bit widened and read as a real. -/
theorem onehot_apply (k : Nat) (a b : Vec Ideal S1x512 .i32) (r q : Fin 1024) :
    (truncf .bf16 (sitofp (F := Ideal) .f32 (extui 32 (cmpi .eq
        (broadcastTo S1024x1024 (addi (iota .tc S1024x1 32 [0] iota_S1024x1_d0_w32)
          (broadcast S1024x1 (Scalar.muli (BitVec.ofNat 32 k) 1024#32))) broadcasts_S1024x1_S1024x1024)
        (broadcastTo S1024x1024 (concatenate S1x1024 1 [⟨S1x512, shapeCast S1x512 a shapeCasts_S1x512_S1x512⟩,
          ⟨S1x512, shapeCast S1x512 b shapeCasts_S1x512_S1x512⟩] concatenates_S1x512_S1x512_S1x1024_d1)
          broadcasts_S1x1024_S1024x1024)) natLt_1_32)) bitsLt_bf16_f32 : FVec Ideal S1024x1024 .bf16) (ix2 r q)
      = Cert.Spec.hot k r (Cert.Spec.cat a b q) := by
  show ((((IntOp.cmpi .eq (broadcastTo S1024x1024 _ broadcasts_S1024x1_S1024x1024 (ix2 r q))
      (broadcastTo S1024x1024 _ broadcasts_S1x1024_S1024x1024 (ix2 r q))).setWidth 32).toInt : ℝ) : EReal) = _
  rw [broadcastTo_a1_ab_apply, broadcastTo_1b_ab_apply, colno_apply, shapeCast_self, shapeCast_self, cat_apply]
  rfl

/-- A row [1, 512] broadcast down the 2048 rows, after the identity cast: entry (p, q) is the row's entry q. -/
theorem row_apply {α : Type} (v : S1x512.Idx → α) (p : Fin 2048) (q : Fin 512) :
    broadcastTo S2048x512 (shapeCast S1x512 v shapeCasts_S1x512_S1x512) broadcasts_S1x512_S2048x512 (ix2 p q)
      = v (ix2 (0 : Fin 1) q) := by
  rw [shapeCast_self]
  exact broadcastTo_1b_ab_apply v _ p q

/-! ## The three stored values -/

theorem pay1_apply (p : Fin 2048) (q : Fin 1024) : k0_pay1 (F := Ideal) (ix2 p q) = 0 := by
  unfold k0_pay1
  refine (congrFun (shapeCast_self _ _) (ix2 p q)).trans ?_
  exact Ideal.ofBits_zero_f32

theorem pay2_apply (i : grid0.Coords) (v7 v9 : Vec Ideal S1x512 .i32) (v18 : Vec Ideal S2048x1024 .bf16)
    (v20 : Vec Ideal S2048x1024 .f32) (p : Fin 2048) (q : Fin 1024) :
    k0_pay2 (F := Ideal) i v7 v9 v18 v20 (ix2 p q)
      = v20 (ix2 p q) + ∑ r : Fin 1024, v18 (ix2 p r) * Cert.Spec.hot (i 2).val r (Cert.Spec.cat v7 v9 q) := by
  unfold k0_pay2
  refine (congrFun (shapeCast_self _ _) (ix2 p q)).trans ?_
  refine congrArg (v20 (ix2 p q) + ·) ?_
  refine (Idealize.ShloMosaic.MatmulAt.matmul_plain_apply none _ _ p q).trans ?_
  refine Finset.sum_congr rfl fun r _ => ?_
  exact congrArg₂ (· * ·) (congrFun (shapeCast_self v18 _) (ix2 p r)) (onehot_apply (i 2).val v7 v9 r q)

theorem pay3_apply (v29 v30 : Vec Ideal S2048x512 .f32) (v31 v33 v35 v37 : Vec Ideal S1x512 .f32) (p : Fin 2048) (q : Fin 512) :
    k0_pay3 (F := Ideal) v29 v30 v31 v33 v35 v37 (ix2 p q)
      = v31 (ix2 (0 : Fin 1) q) + v33 (ix2 (0 : Fin 1) q) * v29 (ix2 p q) + v35 (ix2 (0 : Fin 1) q) * v30 (ix2 p q)
        + v37 (ix2 (0 : Fin 1) q) * (v29 (ix2 p q) * v30 (ix2 p q)) := by
  unfold k0_pay3
  show broadcastTo S2048x512 (shapeCast S1x512 v31 shapeCasts_S1x512_S1x512) broadcasts_S1x512_S2048x512 (ix2 p q)
        + broadcastTo S2048x512 (shapeCast S1x512 v33 shapeCasts_S1x512_S1x512) broadcasts_S1x512_S2048x512 (ix2 p q) * v29 (ix2 p q)
        + broadcastTo S2048x512 (shapeCast S1x512 v35 shapeCasts_S1x512_S1x512) broadcasts_S1x512_S2048x512 (ix2 p q) * v30 (ix2 p q)
        + broadcastTo S2048x512 (shapeCast S1x512 v37 shapeCasts_S1x512_S1x512) broadcasts_S1x512_S2048x512 (ix2 p q)
          * (v29 (ix2 p q) * v30 (ix2 p q)) = _
  rw [row_apply, row_apply, row_apply, row_apply]

end Cert.KernelIdeal.KPay

end
-- ==== Proof.KernPieces.lean ====
/-
  What each control case of the kernel body leaves behind, as the body's stored values.

  The body keeps a [2048, 1024] accumulator in scratch. At the first K-step it zeroes the accumulator and adds the step's
  product, so the scratch ends at the update of the zero array; at the other steps it ends at the update of what the step
  before left. At the last K-step the output tile is the bilinear form of the accumulator's left and right halves and the
  four coefficient rows.
-/
import proofs.«405620_j34368328302783_3_alg».proof.Proof.Gen.KernelIdeal.Frame
import Idealize.ShloMosaic.Lib.ValueIdx
import Idealize.ShloMosaic.Lib.Pipeline.Value

set_option maxRecDepth 16384

noncomputable section

namespace Cert.KernelIdeal.KPieces

open Cert.KernelIdeal Cert.KernelIdeal.Gen Idealize.ShloMosaic Idealize.ShloMosaic.TcCoe Idealize.ShloMosaic.Tactic Idealize.ShloMosaic.ValueIdx

variable {F : FTy → Type} [FloatOps F]

/-- The left half (columns 0 … 511) of a [2048, 1024] array. -/
def accL (a : Vec F S2048x1024 .f32) : Vec F S2048x512 .f32 := fun j => a (ix2 (j 0) (⟨(j 1).val, by have h : (j 1).val < 512 := idx2_lt1 j; omega⟩ : Fin 1024))
/-- The right half (columns 512 … 1023) of a [2048, 1024] array. -/
def accR (a : Vec F S2048x1024 .f32) : Vec F S2048x512 .f32 := fun j => a (ix2 (j 0) (⟨512 + (j 1).val, by have h : (j 1).val < 512 := idx2_lt1 j; omega⟩ : Fin 1024))
/-- Row k of the [4, 512] coefficient tile, as a [1, 512] array. -/
def row (x3 : Vec F S4x512 .f32) (k : Fin 4) : Vec F S1x512 .f32 := fun j => x3 (ix2 k (j 1))

/-- The zero offsets of a whole-array rectangle, as the constant function. -/
theorem hz : (![0, 0] : Fin 2 → Nat) = fun _ => 0 := funext fun a => by fin_cases a <;> rfl

/-- A load through any rectangle of what ONE store of the whole [2048, 1024] array left reads the stored array at the
    rectangle's indices. -/
theorem readCov_whole {sig' : RefSig} {κ : Kind} {sp : Space} (v : View sig' κ sp S2048x1024 .f32)
    (inb : ∀ a, (![0, 0] : Fin 2 → Nat) a + S2048x1024.size a ≤ S2048x1024.size a) (w : Vec F S2048x1024 .f32)
    (r : Rect S2048x1024) :
    v.readCov [(⟨Rect.unit ![0, 0] S2048x1024.size inb, w⟩ : View.Piece (Elt F) S2048x1024 .f32)] r.toLoadRect = View.ld w r := by
  rw [View.readCov_eq_canon_ld _ _ _ (fun y => ⟨_, List.mem_singleton_self _, View.mem_set_unit_zero hz inb y⟩),
    View.canon_unit_zero hz]

/-- The [2048, 512] rectangle at column offset 0 reads the left half: its index (p, q) sits at (0 + p, 0 + q). -/
theorem ld_accL (a : Vec F S2048x1024 .f32)
    (inb : ∀ d, (![0, 0] : Fin 2 → Nat) d + S2048x512.size d ≤ S2048x1024.size d) :
    View.ld a (Rect.unit (s := S2048x1024) ![0, 0] S2048x512.size inb) = accL a := by
  funext j
  refine congrArg a (funext fun d => ?_)
  match d with
  | ⟨0, _⟩ => exact Fin.ext (by show 0 + 1 * (j 0).val = (j 0).val; omega)
  | ⟨1, _⟩ => exact Fin.ext (by show 0 + 1 * (j 1).val = (j 1).val; omega)

/-- The [2048, 512] rectangle at column offset 512 reads the right half: its index (p, q) sits at (0 + p, 512 + q). -/
theorem ld_accR (a : Vec F S2048x1024 .f32)
    (inb : ∀ d, (![0, 512] : Fin 2 → Nat) d + S2048x512.size d ≤ S2048x1024.size d) :
    View.ld a (Rect.unit (s := S2048x1024) ![0, 512] S2048x512.size inb) = accR a := by
  funext j
  refine congrArg a (funext fun d => ?_)
  match d with
  | ⟨0, _⟩ => exact Fin.ext (by show 0 + 1 * (j 0).val = (j 0).val; omega)
  | ⟨1, _⟩ => exact Fin.ext (by show 512 + 1 * (j 1).val = 512 + (j 1).val; omega)

/-- The [1, 512] rectangle at row offset k of the [4, 512] coefficient tile reads row k: its index (0, q) sits at
    (k + 0, 0 + q). -/
theorem ld_row (x3 : Vec F S4x512 .f32) (k : Fin 4) {off : Fin 2 → Nat} (h : off = ![k.val, 0])
    (inb : ∀ d, off d + (![1, 512] : Fin 2 → Nat) d ≤ S4x512.size d) :
    View.ld x3 (Rect.unit (s := S4x512) off ![1, 512] inb) = row x3 k := by
  subst h
  funext j
  refine congrArg x3 (funext fun d => ?_)
  match d with
  | ⟨0, _⟩ =>
    have h0 : (j 0).val < 1 := idx2_lt0 j
    exact Fin.ext (by show k.val + 1 * (j 0).val = k.val; omega)
  | ⟨1, _⟩ => exact Fin.ext (by show 0 + 1 * (j 1).val = (j 1).val; omega)

theorem sout_A_eq (c : Dev nD) (i : grid0.Coords) (arg3 : Memref sig .tc .vmem S2048x1024 .bf16) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S1x512 .i32) (x2 : Vec F S1x512 .i32) (x3 : Vec F S4x512 .f32) :
    sout0_A_0 c i arg3 harg3 arg4 harg4 arg5 harg5 arg6 harg6 arg7 harg7 arg8 harg8 hc0 hc1 x0 x1 x2 x3 = k0_pay2 i x1 x2 x0 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread,
    View.ld_unit_zero (S := S2048x1024) hz, View.ld_unit_zero (S := S1x512) hz]

theorem sout_B_eq (c : Dev nD) (i : grid0.Coords) (arg3 : Memref sig .tc .vmem S2048x1024 .bf16) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S1x512 .i32) (x2 : Vec F S1x512 .i32) (x3 : Vec F S4x512 .f32) (xs0 : Vec F S2048x1024 .f32) :
    sout0_B_0 c i arg3 harg3 arg4 harg4 arg5 harg5 arg6 harg6 arg7 harg7 arg8 harg8 hc0 hc1 x0 x1 x2 x3 xs0 = k0_pay2 i x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S2048x1024) hz, View.ld_unit_zero (S := S1x512) hz]

theorem sout_C_eq (c : Dev nD) (i : grid0.Coords) (arg3 : Memref sig .tc .vmem S2048x1024 .bf16) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S1x512 .i32) (x2 : Vec F S1x512 .i32) (x3 : Vec F S4x512 .f32) (xs0 : Vec F S2048x1024 .f32) :
    sout0_C_0 c i arg3 harg3 arg4 harg4 arg5 harg5 arg6 harg6 arg7 harg7 arg8 harg8 hc0 hc1 x0 x1 x2 x3 xs0 = k0_pay2 i x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S2048x1024) hz, View.ld_unit_zero (S := S1x512) hz]

theorem out_C_eq (c : Dev nD) (i : grid0.Coords) (arg3 : Memref sig .tc .vmem S2048x1024 .bf16) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S2048x512 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S1x512 .i32) (x2 : Vec F S1x512 .i32) (x3 : Vec F S4x512 .f32) (xs0 : Vec F S2048x1024 .f32) :
    out0_C_4 c i arg3 harg3 arg4 harg4 arg5 harg5 arg6 harg6 arg7 harg7 arg8 harg8 hc0 hc1 x0 x1 x2 x3 xs0
      = k0_pay3 (accL (k0_pay2 i x1 x2 x0 xs0)) (accR (k0_pay2 i x1 x2 x0 xs0)) (row x3 0) (row x3 1) (row x3 2) (row x3 3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S2048x1024) hz, View.ld_unit_zero (S := S1x512) hz,
    ld_row x3 0 (off := ![0, 0]) rfl, ld_row x3 1 (off := ![1, 0]) rfl, ld_row x3 2 (off := ![2, 0]) rfl,
    ld_row x3 3 (off := ![3, 0]) rfl]
  exact congrArg₂ (fun a b => k0_pay3 a b (row x3 0) (row x3 1) (row x3 2) (row x3 3))
    ((readCov_whole arg8.view _ _ _).trans (ld_accL _ _)) ((readCov_whole arg8.view _ _ _).trans (ld_accR _ _))

end Cert.KernelIdeal.KPieces

end
-- ==== Proof.KernHost.lean ====
/-
  What the four arrays the kernel's windows read hold when the kernel is launched, in terms of the program's arguments.

  * x is read through a change of float format, which at the ideal instance changes nothing.
  * Each of the two rows of column numbers is wrapped (a negative number moved up by 8192) and clamped to [0, 8191], then
    laid out as a [1, 16384] row: entry (0, q) is the clamped word of the argument's entry.
  * The coefficients are the [16384, 4] coefficient array transposed: entry (a, q) is coefficient a of column q.
-/
import proofs.«405620_j34368328302783_3_alg».proof.Proof.Gen.KernelIdeal.Frame
import proofs.«405620_j34368328302783_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.KHost

open Cert.KernelIdeal Cert.KernelIdeal.Gen Idealize.ShloMosaic Idealize.ShloMosaic.TcCoe Idealize.SL.Sem Idealize.ShloMosaic.StableHlo Idealize.ShloMosaic.ValueIdx

section
variable {F : FTy → Type} [FloatOps F]
/-- The coefficient array [16384, 4]: the softmax of each row of the 16 gate logits (the row minus its maximum, exponentiated,
    divided by the row's sum), multiplied into the fixed [16, 4] gate table. -/
def coeffs (W : FVec F S16384x16 .f32) : FVec F S16384x4 .f32 :=
  let v1 : FVec F S16384x16 .f32 := Host.divf W (broadcastInDim S16384x16 ![] bcast_S_S16384x16 (constant S_ .f32 0x3F800000#32))
  let v4 : FVec F S16384 .f32 := maximumf (broadcastInDim S16384 ![] bcast_S_S16384 (constant S_ .f32 0xFF800000#32))
    (Host.reduce FloatOps.maximumf v1 (constant S_ .f32 0xFF800000#32) reducesTo_S16384x16_S16384_d1 h_S_)
  let v8 : FVec F S16384x16 .f32 := Host.exp (subf v1 (broadcastInDim S16384x16 ![0, 1] bcast_S16384x1_S16384x16_0_1 (broadcastInDim S16384x1 ![0] bcast_S16384_S16384x1_0 v4)))
  let v11 : FVec F S16384x16 .f32 := broadcastInDim S16384x16 ![0, 1] bcast_S16384x1_S16384x16_0_1 (broadcastInDim S16384x1 ![0] bcast_S16384_S16384x1_0
    (Host.reduceAdd v8 (constant S_ .f32 0x00000000#32) reducesTo_S16384x16_S16384_d1 h_S_))
  Host.dotGeneral dot_S16384x16_S16x4_S16384x4_1_0_0_1_n_n none (Host.divf v8 v11) (fun i => FloatOps.ofBits .f32 (lit0 (S16x4.rowMajor i)))
end

variable (m : (ℓ : Loc nD τ sig) → Buf (Elt Ideal) ℓ)

/-! ## The clamped row, read at an entry -/

/-- A row of column words wrapped and clamped entrywise, then laid out as a [1, 16384] row: entry (0, q) is the clamped word of
    the row's entry q. Each vector operation acts entrywise and each broadcast constant reads as its word. -/
theorem clip_row_apply (v : S16384.Idx → BitVec 32) (q : Fin 16384) :
    shapeCast S1x16384
        (minsi (broadcastInDim S16384 ![] bcast_S_S16384 (constantI S_ 32 8191#32))
          (maxsi (broadcastInDim S16384 ![] bcast_S_S16384 (constantI S_ 32 0#32))
            (select (cmpi .slt v (broadcastInDim S16384 ![] bcast_S_S16384 (constantI S_ 32 0#32)))
              (addi v (broadcastInDim S16384 ![] bcast_S_S16384 (constantI S_ 32 8192#32))) v)))
        shapeCasts_S16384_S1x16384 (ix2 (0 : Fin 1) q)
      = Cert.Spec.clipW (v (ix1 q)) := by
  rw [shapeCast_a_1a_apply]
  rfl

/-- Row r of the [2, 16384] array cut out and laid flat: entry q is the array's entry (r, q). -/
theorem flat_row_apply (o : Nat) (A : S2x16384.Idx → BitVec 32) (h : S2x16384.Slices ![o, 0] S1x16384) (r : Fin 2)
    (hr : r.val = o + (0 : Fin 1).val) (q : Fin 16384) :
    shapeCast S16384 (extractStridedSlice S1x16384 ![o, 0] A h) shapeCasts_S1x16384_S16384 (ix1 q) = A (ix2 r q) := by
  rw [shapeCast_1a_a_apply]
  exact slice2_axis0_apply o A h (0 : Fin 1) q r hr

/-! ## The four arrays -/

/-- The x the kernel reads is the argument x. -/
theorem V_x (c : Dev nD) (i : S4096x8192.Idx) :
    (V m c main_v33 : S4096x8192.Idx → EReal) i = (m ((c : Thread nD τ).loc main_arg0) : S4096x8192.Idx → EReal) i := by
  have e : @Eq (S4096x8192.Idx → EReal) (V m c main_v33)
      (truncf .bf16 (F := Ideal) (φ := .f32) (m ((c : Thread nD τ).loc main_arg0)) bitsLt_bf16_f32) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results_simp
  rw [e]
  rfl

/-- The first row of column words the kernel reads: the clamped word of the argument's row 0. -/
theorem V_idx0 (c : Dev nD) (q : Fin 16384) :
    (V m c main_v23 : S1x16384.Idx → BitVec 32) (ix2 (0 : Fin 1) q)
      = Cert.Spec.clipW ((m ((c : Thread nD τ).loc main_arg2) : S2x16384.Idx → BitVec 32) (ix2 (0 : Fin 2) q)) := by
  have e : @Eq (S1x16384.Idx → BitVec 32) (V m c main_v23)
      (shapeCast S1x16384
        (minsi (broadcastInDim S16384 ![] bcast_S_S16384 (constantI S_ 32 8191#32))
          (maxsi (broadcastInDim S16384 ![] bcast_S_S16384 (constantI S_ 32 0#32))
            (select (cmpi .slt
                (shapeCast S16384 (extractStridedSlice S1x16384 ![0, 0] (m ((c : Thread nD τ).loc main_arg2)) slices_S2x16384_S1x16384_0_0) shapeCasts_S1x16384_S16384)
                (broadcastInDim S16384 ![] bcast_S_S16384 (constantI S_ 32 0#32)))
              (addi
                (shapeCast S16384 (extractStridedSlice S1x16384 ![0, 0] (m ((c : Thread nD τ).loc main_arg2)) slices_S2x16384_S1x16384_0_0) shapeCasts_S1x16384_S16384)
                (broadcastInDim S16384 ![] bcast_S_S16384 (constantI S_ 32 8192#32)))
              (shapeCast S16384 (extractStridedSlice S1x16384 ![0, 0] (m ((c : Thread nD τ).loc main_arg2)) slices_S2x16384_S1x16384_0_0) shapeCasts_S1x16384_S16384))))
        shapeCasts_S16384_S1x16384) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results_simp
    rfl
  rw [e, clip_row_apply, flat_row_apply 0 _ slices_S2x16384_S1x16384_0_0 (0 : Fin 2) rfl q]

/-- The second row of column words: the clamped word of the argument's row 1. -/
theorem V_idx1 (c : Dev nD) (q : Fin 16384) :
    (V m c main_v32 : S1x16384.Idx → BitVec 32) (ix2 (0 : Fin 1) q)
      = Cert.Spec.clipW ((m ((c : Thread nD τ).loc main_arg2) : S2x16384.Idx → BitVec 32) (ix2 (1 : Fin 2) q)) := by
  have e : @Eq (S1x16384.Idx → BitVec 32) (V m c main_v32)
      (shapeCast S1x16384
        (minsi (broadcastInDim S16384 ![] bcast_S_S16384 (constantI S_ 32 8191#32))
          (maxsi (broadcastInDim S16384 ![] bcast_S_S16384 (constantI S_ 32 0#32))
            (select (cmpi .slt
                (shapeCast S16384 (extractStridedSlice S1x16384 ![1, 0] (m ((c : Thread nD τ).loc main_arg2)) slices_S2x16384_S1x16384_1_0) shapeCasts_S1x16384_S16384)
                (broadcastInDim S16384 ![] bcast_S_S16384 (constantI S_ 32 0#32)))
              (addi
                (shapeCast S16384 (extractStridedSlice S1x16384 ![1, 0] (m ((c : Thread nD τ).loc main_arg2)) slices_S2x16384_S1x16384_1_0) shapeCasts_S1x16384_S16384)
                (broadcastInDim S16384 ![] bcast_S_S16384 (constantI S_ 32 8192#32)))
              (shapeCast S16384 (extractStridedSlice S1x16384 ![1, 0] (m ((c : Thread nD τ).loc main_arg2)) slices_S2x16384_S1x16384_1_0) shapeCasts_S1x16384_S16384))))
        shapeCasts_S16384_S1x16384) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results_simp
    rfl
  rw [e, clip_row_apply, flat_row_apply 1 _ slices_S2x16384_S1x16384_1_0 (1 : Fin 2) rfl q]

/-- The coefficient array the kernel reads is the coefficient array transposed. -/
theorem V_coef (c : Dev nD) (a : Fin 4) (q : Fin 16384) :
    (V m c main_v14 : S4x16384.Idx → EReal) (ix2 a q)
      = coeffs (F := Ideal) (m ((c : Thread nD τ).loc main_arg1)) (ix2 q a) := by
  have e : @Eq (S4x16384.Idx → EReal) (V m c main_v14)
      (transpose S4x16384 [1, 0] (coeffs (F := Ideal) (m ((c : Thread nD τ).loc main_arg1))) transposes_S16384x4_S4x16384_1_0) := by
    dsimp only [Gen.V]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results_simp
    rfl
  rw [e]
  exact transpose_ix2_apply _ transposes_S16384x4_S4x16384_1_0 a q

end Cert.KernelIdeal.KHost

end
-- ==== Proof.KernBlocks.lean ====
/-
  The blocks the kernel's four input windows hold at grid point t, as entries of the arrays the windows read.

  The grid is 2 × 32 × 8 with the K axis innermost: point t is row block t / 256, column block (t / 8) % 32, K-step
  t % 8. The x window's block is rows 2048·(t/256) … and columns 1024·(t%8) … of x; the two index windows' and the
  coefficient window's blocks are columns 512·((t/8)%32) … of their arrays.
-/
import proofs.«405620_j34368328302783_3_alg».proof.Proof.Gen.KernelIdeal.Frame
import Idealize.ShloMosaic.Lib.ValueIdx
import Idealize.ShloMosaic.Lib.Pipeline.Value

noncomputable section

namespace Cert.KernelIdeal.KBlocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The x window's block at point t. -/
abbrev xblk (c : Dev nD) (t : Fin cfg0.N) : Vec Ideal S2048x1024 .bf16 := iblk m c 0 t
/-- The first index window's block at point t. -/
abbrev i0blk (c : Dev nD) (t : Fin cfg0.N) : Vec Ideal S1x512 .i32 := iblk m c 1 t
/-- The second index window's block at point t. -/
abbrev i1blk (c : Dev nD) (t : Fin cfg0.N) : Vec Ideal S1x512 .i32 := iblk m c 2 t
/-- The coefficient window's block at point t. -/
abbrev cblk (c : Dev nD) (t : Fin cfg0.N) : Vec Ideal S4x512 .f32 := iblk m c 3 t

/-- The four input windows' block indices at point t, and the output window's. -/
theorem idx_facts : ∀ t : Fin cfg0.N,
    win0_0.index t (0 : Fin 2) = t.val / 256 ∧ win0_0.index t (1 : Fin 2) = t.val % 8
    ∧ win0_1.index t (0 : Fin 2) = 0 ∧ win0_1.index t (1 : Fin 2) = t.val / 8 % 32
    ∧ win0_2.index t (0 : Fin 2) = 0 ∧ win0_2.index t (1 : Fin 2) = t.val / 8 % 32
    ∧ win0_3.index t (0 : Fin 2) = 0 ∧ win0_3.index t (1 : Fin 2) = t.val / 8 % 32
    ∧ win0_4.index t (0 : Fin 2) = t.val / 256 ∧ win0_4.index t (1 : Fin 2) = t.val / 8 % 32 :=
  (by decide +kernel : ∀ t : Fin grid0.N, _)

theorem xblk_apply (c : Dev nD) (t : Fin cfg0.N) (p : Fin 2048) (r : Fin 1024)
    (hp : 2048 * (t.val / 256) + p.val < 4096) (hr : 1024 * (t.val % 8) + r.val < 8192) :
    xblk m c t (ix2 p r)
      = (V m c main_v33 : S4096x8192.Idx → EReal) (ix2 (⟨2048 * (t.val / 256) + p.val, hp⟩ : Fin 4096) (⟨1024 * (t.val % 8) + r.val, hr⟩ : Fin 8192)) := by
  have hi := idx_facts t
  unfold xblk iblk
  rw [View.read_apply]
  show V m c main_v33 _ = V m c main_v33 _
  congr 1
  funext a
  apply Fin.ext
  match a with
  | ⟨0, _⟩ => show win0_0.index t 0 * 2048 + 1 * p.val = 2048 * (t.val / 256) + p.val; rw [hi.1]; omega
  | ⟨1, _⟩ => show win0_0.index t 1 * 1024 + 1 * r.val = 1024 * (t.val % 8) + r.val; rw [hi.2.1]; omega

theorem i0blk_apply (c : Dev nD) (t : Fin cfg0.N) (q : Fin 512) (hq : 512 * (t.val / 8 % 32) + q.val < 16384) :
    i0blk m c t (ix2 (0 : Fin 1) q)
      = (V m c main_v23 : S1x16384.Idx → BitVec 32) (ix2 (0 : Fin 1) (⟨512 * (t.val / 8 % 32) + q.val, hq⟩ : Fin 16384)) := by
  have hi := idx_facts t
  unfold i0blk iblk
  rw [View.read_apply]
  show V m c main_v23 _ = V m c main_v23 _
  congr 1
  funext a
  apply Fin.ext
  match a with
  | ⟨0, _⟩ => show win0_1.index t 0 * 1 + 1 * 0 = 0; rw [hi.2.2.1]
  | ⟨1, _⟩ => show win0_1.index t 1 * 512 + 1 * q.val = 512 * (t.val / 8 % 32) + q.val; rw [hi.2.2.2.1]; omega

theorem i1blk_apply (c : Dev nD) (t : Fin cfg0.N) (q : Fin 512) (hq : 512 * (t.val / 8 % 32) + q.val < 16384) :
    i1blk m c t (ix2 (0 : Fin 1) q)
      = (V m c main_v32 : S1x16384.Idx → BitVec 32) (ix2 (0 : Fin 1) (⟨512 * (t.val / 8 % 32) + q.val, hq⟩ : Fin 16384)) := by
  have hi := idx_facts t
  unfold i1blk iblk
  rw [View.read_apply]
  show V m c main_v32 _ = V m c main_v32 _
  congr 1
  funext a
  apply Fin.ext
  match a with
  | ⟨0, _⟩ => show win0_2.index t 0 * 1 + 1 * 0 = 0; rw [hi.2.2.2.2.1]
  | ⟨1, _⟩ => show win0_2.index t 1 * 512 + 1 * q.val = 512 * (t.val / 8 % 32) + q.val; rw [hi.2.2.2.2.2.1]; omega

theorem cblk_apply (c : Dev nD) (t : Fin cfg0.N) (a : Fin 4) (q : Fin 512) (hq : 512 * (t.val / 8 % 32) + q.val < 16384) :
    cblk m c t (ix2 a q)
      = (V m c main_v14 : S4x16384.Idx → EReal) (ix2 a (⟨512 * (t.val / 8 % 32) + q.val, hq⟩ : Fin 16384)) := by
  have hi := idx_facts t
  unfold cblk iblk
  rw [View.read_apply]
  show V m c main_v14 _ = V m c main_v14 _
  congr 1
  funext b
  apply Fin.ext
  match b with
  | ⟨0, _⟩ => show win0_3.index t 0 * 4 + 1 * a.val = a.val; rw [hi.2.2.2.2.2.2.1]; omega
  | ⟨1, _⟩ => show win0_3.index t 1 * 512 + 1 * q.val = 512 * (t.val / 8 % 32) + q.val; rw [hi.2.2.2.2.2.2.2.1]; omega

end Cert.KernelIdeal.KBlocks

end
-- ==== Proof.KernAcc.lean ====
/-
  The accumulator, K-step by K-step.

  At K-step s of a run of eight grid points the body adds to the [2048, 1024] accumulator the product of the step's x tile
  with the step's one-hot tile; the run's first point starts from zero. So after step s the accumulator's entry (p, q) is
  the sum over the steps 0 … s of the row p of each x tile against column q of each one-hot tile. After the last step the
  eight tiles are the whole row of x and the one-hot columns have exactly one non-zero entry among the 8192: the
  accumulator's entry is the entry of x at the selected column — from the first index row for q < 512, from the second
  for q ≥ 512.
-/
import proofs.«405620_j34368328302783_3_alg».proof.Proof.Gen.KernelIdeal.Value
import proofs.«405620_j34368328302783_3_alg».proof.Proof.Spec
import proofs.«405620_j34368328302783_3_alg».proof.Proof.KernPay
import proofs.«405620_j34368328302783_3_alg».proof.Proof.KernPieces
import proofs.«405620_j34368328302783_3_alg».proof.Proof.KernHost
import proofs.«405620_j34368328302783_3_alg».proof.Proof.KernBlocks
import Idealize.ShloMosaic.Lib.Pipeline.Value

noncomputable section

open scoped BigOperators

namespace Cert.KernelIdeal.KAcc

open Cert.KernelIdeal Cert.KernelIdeal.Gen Cert.KernelIdeal.Value Cert.KernelIdeal.KBlocks Cert.KernelIdeal.KPieces
  Cert.KernelIdeal.KPay Cert.KernelIdeal.KHost Idealize.ShloMosaic Idealize.ShloMosaic.TcCoe Idealize.SL.Sem Idealize.ShloMosaic.ValueIdx

variable (m : (ℓ : Loc nD τ sig) → Buf (Elt Ideal) ℓ)

/-- The argument x on core c. -/
abbrev Xarr (c : Dev nD) : S4096x8192.Idx → EReal := m ((c : Thread nD τ).loc main_arg0)
/-- The argument of column numbers on core c. -/
abbrev Iarr (c : Dev nD) : S2x16384.Idx → BitVec 32 := m ((c : Thread nD τ).loc main_arg2)

/-- The K-step of grid point t is t % 8. -/
theorem coord2 : ∀ t : Fin cfg0.N, ((grid0.coords t) (2 : Fin 3)).val = t.val % 8 :=
  (by decide +kernel : ∀ t : Fin grid0.N, _)

/-- The product the body adds at grid point n, entry (p, q): row p of the point's x tile against column q of the point's
    one-hot tile. (Zero beyond the grid.) -/
def Mpq (c : Dev nD) (n : ℕ) (p : Fin 2048) (q : Fin 1024) : EReal :=
  if h : n < cfg0.N then
    ∑ r : Fin 1024, xblk m c ⟨n, h⟩ (ix2 p r)
      * Cert.Spec.hot ((grid0.coords (⟨n, h⟩ : Fin cfg0.N)) (2 : Fin 3)).val r (Cert.Spec.cat (i0blk m c ⟨n, h⟩) (i1blk m c ⟨n, h⟩) q)
  else 0

/-- The same as a function of the accumulator's index. -/
def M (c : Dev nD) (n : ℕ) (i : S2048x1024.Idx) : EReal := Mpq m c n (i 0) (i 1)

/-- After grid point t the accumulator's entry (p, q) is the sum of the products of the run's points up to t. -/
theorem acc_apply (c : Dev nD) (t : Fin cfg0.N) (p : Fin 2048) (q : Fin 1024) :
    (outsAt0 m c t.val t.isLt).2 (ix2 p q) = 0 + ∑ s ∈ Finset.range (t.val % 8 + 1), Mpq m c (8 * (t.val / 8) + s) p q := by
  rw [soutsAt0_0_eq m c t]
  have hN : cfg0.N = 512 := N_0
  have ht := t.isLt
  refine Pipeline.accAt_add_apply (ι := S2048x1024.Idx) (β := EReal)
    (fun n h => scAt0_0 m c n h (VS0_0.read (Elt Ideal) VS0_0.junk)) (scAt0_0 m c) (fun _ => 0) (M m c) (8 * (t.val / 8)) 7
    ?_ ?_ (t.val % 8) (by omega) _ (ix2 p q)
  · intro h i
    obtain ⟨p, q, rfl⟩ : ∃ (p : Fin 2048) (q : Fin 1024), i = ix2 p q := ⟨i 0, i 1, eq_ix2 i⟩
    have h0 : (8 * (t.val / 8)) % 8 = 0 := by omega
    have h1 : ¬ (8 * (t.val / 8)) % 8 = 7 := by omega
    show scAt0_0 m c (8 * (t.val / 8)) h (VS0_0.read (Elt Ideal) VS0_0.junk) (ix2 p q) = 0 + Mpq m c (8 * (t.val / 8)) p q
    unfold scAt0_0
    rw [dif_pos h0, dif_neg h1]
    refine (congrFun (sout_A_eq c (grid0.coords (⟨8 * (t.val / 8), h⟩ : Fin cfg0.N)) (ms0_0 ⟨8 * (t.val / 8), h⟩) (hs0_0 ⟨8 * (t.val / 8), h⟩)
      (ms0_1 ⟨8 * (t.val / 8), h⟩) (hs0_1 ⟨8 * (t.val / 8), h⟩) (ms0_2 ⟨8 * (t.val / 8), h⟩) (hs0_2 ⟨8 * (t.val / 8), h⟩)
      (ms0_3 ⟨8 * (t.val / 8), h⟩) (hs0_3 ⟨8 * (t.val / 8), h⟩) (ms0_4 ⟨8 * (t.val / 8), h⟩) (hs0_4 ⟨8 * (t.val / 8), h⟩) scM0_0 (Memref.isWhole_whole _)
      ((hcond0_0 (⟨8 * (t.val / 8), h⟩ : Fin cfg0.N)).mpr h0) (fun hh => h1 ((hcond0_1 (⟨8 * (t.val / 8), h⟩ : Fin cfg0.N)).mp hh))
      (xblk m c ⟨8 * (t.val / 8), h⟩) (i0blk m c ⟨8 * (t.val / 8), h⟩) (i1blk m c ⟨8 * (t.val / 8), h⟩) (cblk m c ⟨8 * (t.val / 8), h⟩)) (ix2 p q)).trans ?_
    rw [pay2_apply, pay1_apply]
    unfold Mpq
    rw [dif_pos h]
  · intro n h acc i hbn hne
    obtain ⟨p, q, rfl⟩ : ∃ (p : Fin 2048) (q : Fin 1024), i = ix2 p q := ⟨i 0, i 1, eq_ix2 i⟩
    have h0 : ¬ n % 8 = 0 := by omega
    show scAt0_0 m c n h acc (ix2 p q) = acc (ix2 p q) + Mpq m c n p q
    unfold scAt0_0
    rw [dif_neg h0]
    by_cases h1 : n % 8 = 7
    · rw [dif_pos h1]
      refine (congrFun (sout_C_eq c (grid0.coords (⟨n, h⟩ : Fin cfg0.N)) (ms0_0 ⟨n, h⟩) (hs0_0 ⟨n, h⟩)
        (ms0_1 ⟨n, h⟩) (hs0_1 ⟨n, h⟩) (ms0_2 ⟨n, h⟩) (hs0_2 ⟨n, h⟩)
        (ms0_3 ⟨n, h⟩) (hs0_3 ⟨n, h⟩) (ms0_4 ⟨n, h⟩) (hs0_4 ⟨n, h⟩) scM0_0 (Memref.isWhole_whole _)
        (fun hh => h0 ((hcond0_0 (⟨n, h⟩ : Fin cfg0.N)).mp hh)) ((hcond0_1 (⟨n, h⟩ : Fin cfg0.N)).mpr h1)
        (xblk m c ⟨n, h⟩) (i0blk m c ⟨n, h⟩) (i1blk m c ⟨n, h⟩) (cblk m c ⟨n, h⟩) acc) (ix2 p q)).trans ?_
      rw [pay2_apply]
      unfold Mpq
      rw [dif_pos h]
    · rw [dif_neg h1]
      refine (congrFun (sout_B_eq c (grid0.coords (⟨n, h⟩ : Fin cfg0.N)) (ms0_0 ⟨n, h⟩) (hs0_0 ⟨n, h⟩)
        (ms0_1 ⟨n, h⟩) (hs0_1 ⟨n, h⟩) (ms0_2 ⟨n, h⟩) (hs0_2 ⟨n, h⟩)
        (ms0_3 ⟨n, h⟩) (hs0_3 ⟨n, h⟩) (ms0_4 ⟨n, h⟩) (hs0_4 ⟨n, h⟩) scM0_0 (Memref.isWhole_whole _)
        (fun hh => h0 ((hcond0_0 (⟨n, h⟩ : Fin cfg0.N)).mp hh)) (fun hh => h1 ((hcond0_1 (⟨n, h⟩ : Fin cfg0.N)).mp hh))
        (xblk m c ⟨n, h⟩) (i0blk m c ⟨n, h⟩) (i1blk m c ⟨n, h⟩) (cblk m c ⟨n, h⟩) acc) (ix2 p q)).trans ?_
      rw [pay2_apply]
      unfold Mpq
      rw [dif_pos h]

/-- The product at grid point n, entry (p, q) with q in the left half, over the arguments: row R of x, tile s, against the
    one-hot column of the clamped word of the first index row's entry Cq. -/
theorem Mpq_left (c : Dev nD) (n : ℕ) (hn : n < cfg0.N) (p : Fin 2048) (q : Fin 512) (R : Fin 4096) (Cq : Fin 16384) (s : ℕ)
    (hR : R.val = 2048 * (n / 256) + p.val) (hC : Cq.val = 512 * (n / 8 % 32) + q.val) (hS : n % 8 = s) :
    Mpq m c n p (⟨q.val, by have := q.isLt; omega⟩ : Fin 1024)
      = ∑ r : Fin 1024, (if h : 1024 * s + r.val < 8192 then
            Xarr m c (ix2 R (⟨1024 * s + r.val, h⟩ : Fin 8192)) else 0)
          * Cert.Spec.hot s r (Cert.Spec.clipW (Iarr m c (ix2 (0 : Fin 2) Cq))) := by
  subst hS
  have hN : cfg0.N = 512 := N_0
  have hq := q.isLt
  have hp := p.isLt
  obtain ⟨Rv, hRv⟩ := R
  obtain ⟨Cv, hCv⟩ := Cq
  simp only at hR hC
  subst hR hC
  unfold Mpq
  rw [dif_pos hn, coord2 ⟨n, hn⟩]
  refine Finset.sum_congr rfl fun r _ => ?_
  have hr := r.isLt
  have hlt : 1024 * (n % 8) + r.val < 8192 := by omega
  rw [dif_pos hlt, xblk_apply m c ⟨n, hn⟩ p r (by show 2048 * (n / 256) + p.val < 4096; omega) hlt, V_x]
  congr 1
  unfold Cert.Spec.cat
  rw [dif_pos (show ((⟨q.val, by omega⟩ : Fin 1024)).val < 512 from hq),
    i0blk_apply m c ⟨n, hn⟩ ⟨q.val, hq⟩ (by show 512 * (n / 8 % 32) + q.val < 16384; omega), V_idx0]

/-- The same for the right half, against the second index row. -/
theorem Mpq_right (c : Dev nD) (n : ℕ) (hn : n < cfg0.N) (p : Fin 2048) (q : Fin 512) (R : Fin 4096) (Cq : Fin 16384) (s : ℕ)
    (hR : R.val = 2048 * (n / 256) + p.val) (hC : Cq.val = 512 * (n / 8 % 32) + q.val) (hS : n % 8 = s) :
    Mpq m c n p (⟨512 + q.val, by have := q.isLt; omega⟩ : Fin 1024)
      = ∑ r : Fin 1024, (if h : 1024 * s + r.val < 8192 then
            Xarr m c (ix2 R (⟨1024 * s + r.val, h⟩ : Fin 8192)) else 0)
          * Cert.Spec.hot s r (Cert.Spec.clipW (Iarr m c (ix2 (1 : Fin 2) Cq))) := by
  subst hS
  have hN : cfg0.N = 512 := N_0
  have hq := q.isLt
  have hp := p.isLt
  obtain ⟨Rv, hRv⟩ := R
  obtain ⟨Cv, hCv⟩ := Cq
  simp only at hR hC
  subst hR hC
  unfold Mpq
  rw [dif_pos hn, coord2 ⟨n, hn⟩]
  refine Finset.sum_congr rfl fun r _ => ?_
  have hr := r.isLt
  have hlt : 1024 * (n % 8) + r.val < 8192 := by omega
  rw [dif_pos hlt, xblk_apply m c ⟨n, hn⟩ p r (by show 2048 * (n / 256) + p.val < 4096; omega) hlt, V_x]
  congr 1
  unfold Cert.Spec.cat
  rw [dif_neg (show ¬ ((⟨512 + q.val, by omega⟩ : Fin 1024)).val < 512 from by show ¬ 512 + q.val < 512; omega)]
  have e : (⟨(⟨512 + q.val, by omega⟩ : Fin 1024).val - 512, by show 512 + q.val - 512 < 512; omega⟩ : Fin 512) = q :=
    Fin.ext (by show 512 + q.val - 512 = q.val; omega)
  rw [e, i1blk_apply m c ⟨n, hn⟩ q (by show 512 * (n / 8 % 32) + q.val < 16384; omega), V_idx1]

/-- After the last K-step the accumulator's left half holds x at the columns the first index row selects … -/
theorem acc_left (c : Dev nD) (t : Fin cfg0.N) (h7 : t.val % 8 = 7) (p : Fin 2048) (q : Fin 512) (R : Fin 4096) (Cq : Fin 16384)
    (hR : R.val = 2048 * (t.val / 256) + p.val) (hC : Cq.val = 512 * (t.val / 8 % 32) + q.val) :
    (outsAt0 m c t.val t.isLt).2 (ix2 p (⟨q.val, by have := q.isLt; omega⟩ : Fin 1024))
      = Xarr m c
          (ix2 R (Cert.Spec.col (Iarr m c (ix2 (0 : Fin 2) Cq)))) := by
  have hN : cfg0.N = 512 := N_0
  have ht := t.isLt
  rw [acc_apply, h7, zero_add]
  rw [Finset.sum_congr rfl (fun s hs => Mpq_left m c (8 * (t.val / 8) + s) (by have := Finset.mem_range.1 hs; omega) p q R Cq s
    (by have := Finset.mem_range.1 hs; omega) (by have := Finset.mem_range.1 hs; omega) (by have := Finset.mem_range.1 hs; omega))]
  exact Cert.Spec.sum_hot (fun k => Xarr m c (ix2 R k)) _

/-- … and its right half x at the columns the second index row selects. -/
theorem acc_right (c : Dev nD) (t : Fin cfg0.N) (h7 : t.val % 8 = 7) (p : Fin 2048) (q : Fin 512) (R : Fin 4096) (Cq : Fin 16384)
    (hR : R.val = 2048 * (t.val / 256) + p.val) (hC : Cq.val = 512 * (t.val / 8 % 32) + q.val) :
    (outsAt0 m c t.val t.isLt).2 (ix2 p (⟨512 + q.val, by have := q.isLt; omega⟩ : Fin 1024))
      = Xarr m c
          (ix2 R (Cert.Spec.col (Iarr m c (ix2 (1 : Fin 2) Cq)))) := by
  have hN : cfg0.N = 512 := N_0
  have ht := t.isLt
  rw [acc_apply, h7, zero_add]
  rw [Finset.sum_congr rfl (fun s hs => Mpq_right m c (8 * (t.val / 8) + s) (by have := Finset.mem_range.1 hs; omega) p q R Cq s
    (by have := Finset.mem_range.1 hs; omega) (by have := Finset.mem_range.1 hs; omega) (by have := Finset.mem_range.1 hs; omega))]
  exact Cert.Spec.sum_hot (fun k => Xarr m c (ix2 R k)) _

end Cert.KernelIdeal.KAcc

end
-- ==== Proof.KernFinal.lean ====
/-
  The kernel's output array after the run.

  Output window 4 is written back only at the last K-step of each run of eight grid points, where the body stores the
  bilinear form of the accumulator's two halves and the coefficient rows. With the accumulator's halves the two selected
  entries of x's row, the block written at point t is block (t / 256, (t / 8) % 32) of the specification; these blocks
  tile the [4096, 16384] array, so the whole array is the specification of the arguments.
-/
import proofs.«405620_j34368328302783_3_alg».proof.Proof.Gen.KernelIdeal.Value
import proofs.«405620_j34368328302783_3_alg».proof.Proof.Spec
import proofs.«405620_j34368328302783_3_alg».proof.Proof.KernPay
import proofs.«405620_j34368328302783_3_alg».proof.Proof.KernPieces
import proofs.«405620_j34368328302783_3_alg».proof.Proof.KernHost
import proofs.«405620_j34368328302783_3_alg».proof.Proof.KernBlocks
import proofs.«405620_j34368328302783_3_alg».proof.Proof.KernAcc
import Idealize.ShloMosaic.Lib.Pipeline.Value

noncomputable section

namespace Cert.KernelIdeal.KFinal

open Cert.KernelIdeal Cert.KernelIdeal.Gen Cert.KernelIdeal.Value Cert.KernelIdeal.KBlocks Cert.KernelIdeal.KPieces
  Cert.KernelIdeal.KPay Cert.KernelIdeal.KHost Cert.KernelIdeal.KAcc Idealize.ShloMosaic Idealize.ShloMosaic.TcCoe Idealize.SL.Sem
  Idealize.ShloMosaic.ValueIdx

variable (m : (ℓ : Loc nD τ sig) → Buf (Elt Ideal) ℓ) (ρ : Dev nD → PrngReg)

/-- What the output array holds after the run: the specification of the three arguments. -/
abbrev result (c : Dev nD) : S4096x16384.Idx → EReal :=
  Cert.Spec.spec (m ((c : Thread nD τ).loc main_arg0)) (coeffs (F := Ideal) (m ((c : Thread nD τ).loc main_arg1)))
    (m ((c : Thread nD τ).loc main_arg2))

/-- The output tile at an index: the bilinear form of the accumulator's entries (p, q) and (p, 512 + q) with the four
    coefficients of column q. -/
theorem tile_apply (A : Vec Ideal S2048x1024 .f32) (x3 : Vec Ideal S4x512 .f32) (p : Fin 2048) (q : Fin 512) :
    k0_pay3 (F := Ideal) (accL A) (accR A) (row x3 0) (row x3 1) (row x3 2) (row x3 3) (ix2 p q)
      = x3 (ix2 (0 : Fin 4) q) + x3 (ix2 (1 : Fin 4) q) * A (ix2 p (⟨q.val, by have := q.isLt; omega⟩ : Fin 1024))
        + x3 (ix2 (2 : Fin 4) q) * A (ix2 p (⟨512 + q.val, by have := q.isLt; omega⟩ : Fin 1024))
        + x3 (ix2 (3 : Fin 4) q) * (A (ix2 p (⟨q.val, by have := q.isLt; omega⟩ : Fin 1024))
            * A (ix2 p (⟨512 + q.val, by have := q.isLt; omega⟩ : Fin 1024))) := by
  rw [pay3_apply]
  rfl

/-- Entry (p, q) of output block t is entry (2048·(t/256) + p, 512·((t/8)%32) + q) of the array. -/
theorem emb_eq (t : Fin cfg0.N) (p : Fin 2048) (q : Fin 512) (R : Fin 4096) (Cq : Fin 16384)
    (hR : R.val = 2048 * (t.val / 256) + p.val) (hC : Cq.val = 512 * (t.val / 8 % 32) + q.val) :
    ((cfg0.win 4).blk t).view.emb (ix2 p q) = ix2 R Cq := by
  have hi := idx_facts t
  funext a
  apply Fin.ext
  match a with
  | ⟨0, _⟩ => show win0_4.index t 0 * 2048 + 1 * p.val = R.val; rw [hi.2.2.2.2.2.2.2.2.1, hR]; omega
  | ⟨1, _⟩ => show win0_4.index t 1 * 512 + 1 * q.val = Cq.val; rw [hi.2.2.2.2.2.2.2.2.2, hC]; omega

/-- What a flushing point writes back is its block of the specification. -/
theorem flushed_eq (c : Dev nD) (t : Fin cfg0.N) (hf : (cfg0.win 4).flush t = true) :
    (dats m 0 c).flushed 4 t = ((cfg0.win 4).blk t).view.read (Elt Ideal) (result m c) := by
  have hN : cfg0.N = 512 := N_0
  have ht := t.isLt
  have h7 : t.val % 8 = 7 := (flush0_4 t).1 hf
  have h0 : ¬ t.val % 8 = 0 := by omega
  rw [flushed4_C m c t h0 h7]
  funext j
  obtain ⟨p, q, rfl⟩ : ∃ (p : Fin 2048) (q : Fin 512), j = ix2 p q := ⟨j 0, j 1, eq_ix2 j⟩
  have hp := p.isLt
  have hq := q.isLt
  have hA : k0_pay2 (F := Ideal) (grid0.coords t) (i0blk m c t) (i1blk m c t) (xblk m c t)
      (outsAt0 m c (t.val - 1) (Nat.lt_of_le_of_lt (Nat.sub_le _ _) t.isLt)).2 = (outsAt0 m c t.val t.isLt).2 := by
    rw [outsAt0_C m c t h0 h7]
    dsimp only
    exact (sout_C_eq c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h7)
      (xblk m c t) (i0blk m c t) (i1blk m c t) (cblk m c t) (outsAt0 m c (t.val - 1) (Nat.lt_of_le_of_lt (Nat.sub_le _ _) t.isLt)).2).symm
  show out0_C_4 c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h7)
      (xblk m c t) (i0blk m c t) (i1blk m c t) (cblk m c t) (outsAt0 m c (t.val - 1) (Nat.lt_of_le_of_lt (Nat.sub_le _ _) t.isLt)).2 (ix2 p q)
    = result m c (((cfg0.win 4).blk t).view.emb (ix2 p q))
  rw [emb_eq t p q (⟨2048 * (t.val / 256) + p.val, by omega⟩ : Fin 4096) (⟨512 * (t.val / 8 % 32) + q.val, by omega⟩ : Fin 16384) rfl rfl]
  refine (congrFun (out_C_eq c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) ((hcond0_1 t).mpr h7)
      (xblk m c t) (i0blk m c t) (i1blk m c t) (cblk m c t) (outsAt0 m c (t.val - 1) (Nat.lt_of_le_of_lt (Nat.sub_le _ _) t.isLt)).2) (ix2 p q)).trans ?_
  rw [hA, tile_apply,
    acc_left m c t h7 p q (⟨2048 * (t.val / 256) + p.val, by omega⟩ : Fin 4096) (⟨512 * (t.val / 8 % 32) + q.val, by omega⟩ : Fin 16384) rfl rfl,
    acc_right m c t h7 p q (⟨2048 * (t.val / 256) + p.val, by omega⟩ : Fin 4096) (⟨512 * (t.val / 8 % 32) + q.val, by omega⟩ : Fin 16384) rfl rfl,
    cblk_apply m c t 0 q (by omega), cblk_apply m c t 1 q (by omega), cblk_apply m c t 2 q (by omega), cblk_apply m c t 3 q (by omega),
    V_coef, V_coef, V_coef, V_coef]
  rfl

/-- An index of the array is in point t's block iff each coordinate is in the block's range on its axis. -/
theorem mem_blk (t : Fin cfg0.N) (i : S4096x16384.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v34).slice (win0_4.rect t)).set ↔ _
  rw [View.set_slice_whole, Rect.mem_set_unit]
  exact Iff.rfl

/-- Every index of the array lies in the block of a flushing point. -/
theorem cover (i : S4096x16384.Idx) : ∃ t : Fin cfg0.N, (cfg0.win 4).flush t = true ∧ i ∈ ((cfg0.win 4).blk t).view.set := by
  have hN : cfg0.N = 512 := N_0
  have h0 : (i 0).val < 4096 := idx2_lt0 i
  have h1 : (i 1).val < 16384 := idx2_lt1 i
  have hlt : ((i 0).val / 2048 * 32 + (i 1).val / 512) * 8 + 7 < cfg0.N := by omega
  refine ⟨⟨((i 0).val / 2048 * 32 + (i 1).val / 512) * 8 + 7, hlt⟩, (flush0_4 _).2 (by show (((i 0).val / 2048 * 32 + (i 1).val / 512) * 8 + 7) % 8 = 7; omega), ?_⟩
  have hi := idx_facts ⟨((i 0).val / 2048 * 32 + (i 1).val / 512) * 8 + 7, hlt⟩
  rw [mem_blk]
  intro a
  match a with
  | ⟨0, _⟩ =>
    show win0_4.index _ (0 : Fin 2) * 2048 ≤ (i 0).val ∧ (i 0).val < win0_4.index _ (0 : Fin 2) * 2048 + 2048
    rw [hi.2.2.2.2.2.2.2.2.1]
    show (((i 0).val / 2048 * 32 + (i 1).val / 512) * 8 + 7) / 256 * 2048 ≤ (i 0).val ∧ (i 0).val < (((i 0).val / 2048 * 32 + (i 1).val / 512) * 8 + 7) / 256 * 2048 + 2048
    omega
  | ⟨1, _⟩ =>
    show win0_4.index _ (1 : Fin 2) * 512 ≤ (i 1).val ∧ (i 1).val < win0_4.index _ (1 : Fin 2) * 512 + 512
    rw [hi.2.2.2.2.2.2.2.2.2]
    show (((i 0).val / 2048 * 32 + (i 1).val / 512) * 8 + 7) / 8 % 32 * 512 ≤ (i 1).val ∧ (i 1).val < (((i 0).val / 2048 * 32 + (i 1).val / 512) * 8 + 7) / 8 % 32 * 512 + 512
    omega

/-- The output array after the run is the specification of the arguments. -/
theorem final (c : Dev nD) : (dats m 0 c).arrAt 4 cfg0.N = result m c :=
  (dats m 0 c).arrAt_eq_of_cover 4 (result m c) (flushed_eq m c) cover

/-- The kernel's run: it terminates with its result at the specification of its arguments, and the arguments unchanged. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KFinal

end
-- ==== Proof.RefValue.lean ====
/-
  The reference program's run: its 64 host operations in order, and what its result buffer holds afterwards.

  The operations fall into two stretches. The first 19 compute the coefficient array from the gate logits (a softmax of
  each row, multiplied into the fixed gate table): their composed term is `coeffs`, and nothing below looks inside it.
  The other 45 read two columns of x per output column (a gather by the wrapped column numbers), cut the coefficient
  array into its four columns, broadcast each over the rows, and combine them into the bilinear form of `Cert.Spec.specAt`.
  The result buffer is read index by index: every layout operation (slice, reshape, broadcast) reads one index of its
  operand, the gather reads x at the selected column, and the arithmetic is pointwise.
-/
import proofs.«405620_j34368328302783_3_alg».proof.Proof.Gen.ReferenceIdeal
import proofs.«405620_j34368328302783_3_alg».proof.Proof.Spec
import proofs.«405620_j34368328302783_3_alg».proof.Proof.LibGatherRead
import Idealize.ShloMosaic.Lib.StableHlo.Run
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

section
variable {F : FTy → Type} [FloatOps F]
/-- The coefficient array [16384, 4]: the softmax of each row of the 16 gate logits (the row minus its maximum, exponentiated,
    divided by the row's sum), multiplied into the fixed [16, 4] gate table. -/
def coeffs (W : FVec F S16384x16 .f32) : FVec F S16384x4 .f32 :=
  let v1 : FVec F S16384x16 .f32 := Host.divf W (broadcastInDim S16384x16 ![] bcast_S_S16384x16 (constant S_ .f32 0x3F800000#32))
  let v4 : FVec F S16384 .f32 := maximumf (broadcastInDim S16384 ![] bcast_S_S16384 (constant S_ .f32 0xFF800000#32))
    (Host.reduce FloatOps.maximumf v1 (constant S_ .f32 0xFF800000#32) reducesTo_S16384x16_S16384_d1 h_S_)
  let v8 : FVec F S16384x16 .f32 := Host.exp (subf v1 (broadcastInDim S16384x16 ![0, 1] bcast_S16384x1_S16384x16_0_1 (broadcastInDim S16384x1 ![0] bcast_S16384_S16384x1_0 v4)))
  let v11 : FVec F S16384x16 .f32 := broadcastInDim S16384x16 ![0, 1] bcast_S16384x1_S16384x16_0_1 (broadcastInDim S16384x1 ![0] bcast_S16384_S16384x1_0
    (Host.reduceAdd v8 (constant S_ .f32 0x00000000#32) reducesTo_S16384x16_S16384_d1 h_S_))
  Host.dotGeneral dot_S16384x16_S16x4_S16384x4_1_0_0_1_n_n none (Host.divf v8 v11) (fun i => FloatOps.ofBits .f32 (lit0 (S16x4.rowMajor i)))
end

section
variable {F : FTy → Type} [FloatOps F]

/-- @main's first 19 operations, in order: the coefficient array from the gate logits. -/
abbrev opsA : List (HloOp τ sig (Elt F)) :=
  [ nullary main_cst (fun i => FloatOps.ofBits .f32 (lit0 (S16x4.rowMajor i))),
    nullary main_cst_0 (constant S_ .f32 0x3F800000#32),
    unary main_cst_0 main_v0 (broadcastInDim S16384x16 ![] bcast_S_S16384x16 : (⟨S_, .f32⟩ : BufTy).Contents (Elt F) → (⟨S16384x16, .f32⟩ : BufTy).Contents (Elt F)),
    binary main_arg1 main_v0 main_v1 (Host.divf : (⟨S16384x16, .f32⟩ : BufTy).Contents (Elt F) → (⟨S16384x16, .f32⟩ : BufTy).Contents (Elt F) → (⟨S16384x16, .f32⟩ : BufTy).Contents (Elt F)),
    nullary main_cst_1 (constant S_ .f32 0xFF800000#32),
    binary main_v1 main_cst_1 main_v2 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_2 (constant S_ .f32 0xFF800000#32),
    unary main_cst_2 main_v3 (broadcastInDim S16384 ![] bcast_S_S16384 : (⟨S_, .f32⟩ : BufTy).Contents (Elt F) → (⟨S16384, .f32⟩ : BufTy).Contents (Elt F)),
    binary main_v3 main_v2 main_v4 (maximumf : (⟨S16384, .f32⟩ : BufTy).Contents (Elt F) → (⟨S16384, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    unary main_v5 main_v6 (broadcastInDim S16384x16 ![0, 1] bcast_S16384x1_S16384x16_0_1 : (⟨S16384x1, .f32⟩ : BufTy).Contents (Elt F) → (⟨S16384x16, .f32⟩ : BufTy).Contents (Elt F)),
    binary main_v1 main_v6 main_v7 (subf : (⟨S16384x16, .f32⟩ : BufTy).Contents (Elt F) → (⟨S16384x16, .f32⟩ : BufTy).Contents (Elt F) → (⟨S16384x16, .f32⟩ : BufTy).Contents (Elt F)),
    unary main_v7 main_v8 (Host.exp : (⟨S16384x16, .f32⟩ : BufTy).Contents (Elt F) → (⟨S16384x16, .f32⟩ : BufTy).Contents (Elt F)),
    nullary main_cst_3 (constant S_ .f32 0x00000000#32),
    binary main_v8 main_cst_3 main_v9 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v9 main_v10 (broadcastInDim S16384x1 ![0] bcast_S16384_S16384x1_0 : (⟨S16384, .f32⟩ : BufTy).Contents (Elt F) → (⟨S16384x1, .f32⟩ : BufTy).Contents (Elt F)),
    unary main_v10 main_v11 (broadcastInDim S16384x16 ![0, 1] bcast_S16384x1_S16384x16_0_1 : (⟨S16384x1, .f32⟩ : BufTy).Contents (Elt F) → (⟨S16384x16, .f32⟩ : BufTy).Contents (Elt F)),
    binary main_v8 main_v11 main_v12 (Host.divf : (⟨S16384x16, .f32⟩ : BufTy).Contents (Elt F) → (⟨S16384x16, .f32⟩ : BufTy).Contents (Elt F) → (⟨S16384x16, .f32⟩ : BufTy).Contents (Elt F)),
    binary main_v12 main_cst main_v13 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)) ]

/-- @main's other 45 operations, in order: the two gathers, the coefficient columns, the bilinear form. -/
abbrev opsB : List (HloOp τ sig (Elt F)) :=
  [ unary main_arg2 main_v14 ((extractStridedSlice S1x16384 ![0, 0] · slices_S2x16384_S1x16384_0_0) : (⟨S2x16384, .i32⟩ : BufTy).Contents (Elt F) → (⟨S1x16384, .i32⟩ : BufTy).Contents (Elt F)),
    reshape main_v14 main_v15 rfl shapeCasts_S1x16384_S16384,
    nullary main_c (constantI S_ 32 0#32),
    unary main_c main_v16 (broadcastInDim S16384 ![] bcast_S_S16384 : (⟨S_, .i32⟩ : BufTy).Contents (Elt F) → (⟨S16384, .i32⟩ : BufTy).Contents (Elt F)),
    binary main_v15 main_v16 main_v17 (cmpi .slt : (⟨S16384, .i32⟩ : BufTy).Contents (Elt F) → (⟨S16384, .i32⟩ : BufTy).Contents (Elt F) → (⟨S16384, .i1⟩ : BufTy).Contents (Elt F)),
    nullary main_c_4 (constantI S_ 32 8192#32),
    unary main_c_4 main_v18 (broadcastInDim S16384 ![] bcast_S_S16384 : (⟨S_, .i32⟩ : BufTy).Contents (Elt F) → (⟨S16384, .i32⟩ : BufTy).Contents (Elt F)),
    binary main_v15 main_v18 main_v19 (addi : (⟨S16384, .i32⟩ : BufTy).Contents (Elt F) → (⟨S16384, .i32⟩ : BufTy).Contents (Elt F) → (⟨S16384, .i32⟩ : BufTy).Contents (Elt F)),
    ternary main_v17 main_v19 main_v15 main_v20 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v20 main_v21 (broadcastInDim S16384x1 ![0] bcast_S16384_S16384x1_0 : (⟨S16384, .i32⟩ : BufTy).Contents (Elt F) → (⟨S16384x1, .i32⟩ : BufTy).Contents (Elt F)),
    binary main_arg0 main_v21 main_v22 ((fun x i => Host.gather gather_S4096x8192_S16384x1_S4096x16384_0_1_n_n_1_1_40961 x i) : (⟨S4096x8192, .f32⟩ : BufTy).Contents (Elt F) → (⟨S16384x1, .i32⟩ : BufTy).Contents (Elt F) → (⟨S4096x16384, .f32⟩ : BufTy).Contents (Elt F)),
    unary main_arg2 main_v23 ((extractStridedSlice S1x16384 ![1, 0] · slices_S2x16384_S1x16384_1_0) : (⟨S2x16384, .i32⟩ : BufTy).Contents (Elt F) → (⟨S1x16384, .i32⟩ : BufTy).Contents (Elt F)),
    reshape main_v23 main_v24 rfl shapeCasts_S1x16384_S16384,
    nullary main_c_5 (constantI S_ 32 0#32),
    unary main_c_5 main_v25 (broadcastInDim S16384 ![] bcast_S_S16384 : (⟨S_, .i32⟩ : BufTy).Contents (Elt F) → (⟨S16384, .i32⟩ : BufTy).Contents (Elt F)),
    binary main_v24 main_v25 main_v26 (cmpi .slt : (⟨S16384, .i32⟩ : BufTy).Contents (Elt F) → (⟨S16384, .i32⟩ : BufTy).Contents (Elt F) → (⟨S16384, .i1⟩ : BufTy).Contents (Elt F)),
    nullary main_c_6 (constantI S_ 32 8192#32),
    unary main_c_6 main_v27 (broadcastInDim S16384 ![] bcast_S_S16384 : (⟨S_, .i32⟩ : BufTy).Contents (Elt F) → (⟨S16384, .i32⟩ : BufTy).Contents (Elt F)),
    binary main_v24 main_v27 main_v28 (addi : (⟨S16384, .i32⟩ : BufTy).Contents (Elt F) → (⟨S16384, .i32⟩ : BufTy).Contents (Elt F) → (⟨S16384, .i32⟩ : BufTy).Contents (Elt F)),
    ternary main_v26 main_v28 main_v24 main_v29 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v29 main_v30 (broadcastInDim S16384x1 ![0] bcast_S16384_S16384x1_0 : (⟨S16384, .i32⟩ : BufTy).Contents (Elt F) → (⟨S16384x1, .i32⟩ : BufTy).Contents (Elt F)),
    binary main_arg0 main_v30 main_v31 ((fun x i => Host.gather gather_S4096x8192_S16384x1_S4096x16384_0_1_n_n_1_1_40961 x i) : (⟨S4096x8192, .f32⟩ : BufTy).Contents (Elt F) → (⟨S16384x1, .i32⟩ : BufTy).Contents (Elt F) → (⟨S4096x16384, .f32⟩ : BufTy).Contents (Elt F)),
    unary main_v13 main_v32 ((extractStridedSlice S16384x1 ![0, 0] · slices_S16384x4_S16384x1_0_0) : (⟨S16384x4, .f32⟩ : BufTy).Contents (Elt F) → (⟨S16384x1, .f32⟩ : BufTy).Contents (Elt F)),
    reshape main_v32 main_v33 rfl shapeCasts_S16384x1_S16384,
    unary main_v13 main_v34 ((extractStridedSlice S16384x1 ![0, 1] · slices_S16384x4_S16384x1_0_1) : (⟨S16384x4, .f32⟩ : BufTy).Contents (Elt F) → (⟨S16384x1, .f32⟩ : BufTy).Contents (Elt F)),
    reshape main_v34 main_v35 rfl shapeCasts_S16384x1_S16384,
    unary main_v13 main_v36 ((extractStridedSlice S16384x1 ![0, 2] · slices_S16384x4_S16384x1_0_2) : (⟨S16384x4, .f32⟩ : BufTy).Contents (Elt F) → (⟨S16384x1, .f32⟩ : BufTy).Contents (Elt F)),
    reshape main_v36 main_v37 rfl shapeCasts_S16384x1_S16384,
    unary main_v13 main_v38 ((extractStridedSlice S16384x1 ![0, 3] · slices_S16384x4_S16384x1_0_3) : (⟨S16384x4, .f32⟩ : BufTy).Contents (Elt F) → (⟨S16384x1, .f32⟩ : BufTy).Contents (Elt F)),
    reshape main_v38 main_v39 rfl shapeCasts_S16384x1_S16384,
    unary main_v35 main_v40 (broadcastInDim S1x16384 ![1] bcast_S16384_S1x16384_1 : (⟨S16384, .f32⟩ : BufTy).Contents (Elt F) → (⟨S1x16384, .f32⟩ : BufTy).Contents (Elt F)),
    unary main_v40 main_v41 (broadcastInDim S4096x16384 ![0, 1] bcast_S1x16384_S4096x16384_0_1 : (⟨S1x16384, .f32⟩ : BufTy).Contents (Elt F) → (⟨S4096x16384, .f32⟩ : BufTy).Contents (Elt F)),
    binary main_v41 main_v22 main_v42 (mulf : (⟨S4096x16384, .f32⟩ : BufTy).Contents (Elt F) → (⟨S4096x16384, .f32⟩ : BufTy).Contents (Elt F) → (⟨S4096x16384, .f32⟩ : BufTy).Contents (Elt F)),
    unary main_v33 main_v43 (broadcastInDim S1x16384 ![1] bcast_S16384_S1x16384_1 : (⟨S16384, .f32⟩ : BufTy).Contents (Elt F) → (⟨S1x16384, .f32⟩ : BufTy).Contents (Elt F)),
    unary main_v43 main_v44 (broadcastInDim S4096x16384 ![0, 1] bcast_S1x16384_S4096x16384_0_1 : (⟨S1x16384, .f32⟩ : BufTy).Contents (Elt F) → (⟨S4096x16384, .f32⟩ : BufTy).Contents (Elt F)),
    binary main_v44 main_v42 main_v45 (addf : (⟨S4096x16384, .f32⟩ : BufTy).Contents (Elt F) → (⟨S4096x16384, .f32⟩ : BufTy).Contents (Elt F) → (⟨S4096x16384, .f32⟩ : BufTy).Contents (Elt F)),
    unary main_v37 main_v46 (broadcastInDim S1x16384 ![1] bcast_S16384_S1x16384_1 : (⟨S16384, .f32⟩ : BufTy).Contents (Elt F) → (⟨S1x16384, .f32⟩ : BufTy).Contents (Elt F)),
    unary main_v46 main_v47 (broadcastInDim S4096x16384 ![0, 1] bcast_S1x16384_S4096x16384_0_1 : (⟨S1x16384, .f32⟩ : BufTy).Contents (Elt F) → (⟨S4096x16384, .f32⟩ : BufTy).Contents (Elt F)),
    binary main_v47 main_v31 main_v48 (mulf : (⟨S4096x16384, .f32⟩ : BufTy).Contents (Elt F) → (⟨S4096x16384, .f32⟩ : BufTy).Contents (Elt F) → (⟨S4096x16384, .f32⟩ : BufTy).Contents (Elt F)),
    binary main_v45 main_v48 main_v49 (addf : (⟨S4096x16384, .f32⟩ : BufTy).Contents (Elt F) → (⟨S4096x16384, .f32⟩ : BufTy).Contents (Elt F) → (⟨S4096x16384, .f32⟩ : BufTy).Contents (Elt F)),
    binary main_v22 main_v31 main_v50 (mulf : (⟨S4096x16384, .f32⟩ : BufTy).Contents (Elt F) → (⟨S4096x16384, .f32⟩ : BufTy).Contents (Elt F) → (⟨S4096x16384, .f32⟩ : BufTy).Contents (Elt F)),
    unary main_v39 main_v51 (broadcastInDim S1x16384 ![1] bcast_S16384_S1x16384_1 : (⟨S16384, .f32⟩ : BufTy).Contents (Elt F) → (⟨S1x16384, .f32⟩ : BufTy).Contents (Elt F)),
    unary main_v51 main_v52 (broadcastInDim S4096x16384 ![0, 1] bcast_S1x16384_S4096x16384_0_1 : (⟨S1x16384, .f32⟩ : BufTy).Contents (Elt F) → (⟨S4096x16384, .f32⟩ : BufTy).Contents (Elt F)),
    binary main_v52 main_v50 main_v53 (mulf : (⟨S4096x16384, .f32⟩ : BufTy).Contents (Elt F) → (⟨S4096x16384, .f32⟩ : BufTy).Contents (Elt F) → (⟨S4096x16384, .f32⟩ : BufTy).Contents (Elt F)),
    binary main_v49 main_v53 main_v54 (addf : (⟨S4096x16384, .f32⟩ : BufTy).Contents (Elt F) → (⟨S4096x16384, .f32⟩ : BufTy).Contents (Elt F) → (⟨S4096x16384, .f32⟩ : BufTy).Contents (Elt F)) ]

/-- @main's 64 operations, in order. -/
abbrev ops : List (HloOp τ sig (Elt F)) := opsA ++ opsB

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
set_option maxRecDepth 8192 in
theorem opsB_sub : (opsB : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp opsA_sub op h, List.forall_iff_forall_mem.mp opsB_sub op h]

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end

/-! ## Reading the composed term at an index -/

section Read
variable {α : Type}

/-- A column of the coefficient array, made a row and broadcast over the 4096 rows, reads at (p, q) the
    coefficient (q, k): the slice keeps column k, the reshape drops the unit axis, the two broadcasts put q on the
    column axis and ignore the row. -/
theorem coefCol_apply (CO : S16384x4.Idx → α) (o : Nat) (k : Fin 4) (hk : k.val = o)
    (h : S16384x4.Slices ![0, o] S16384x1) (p : Fin 4096) (q : Fin 16384) :
    broadcastInDim S4096x16384 ![0, 1] bcast_S1x16384_S4096x16384_0_1
        (broadcastInDim S1x16384 ![1] bcast_S16384_S1x16384_1 fun i =>
          shapeCast S16384 (extractStridedSlice S16384x1 ![0, o] CO h) shapeCasts_S16384x1_S16384 i) (ix2 p q)
      = CO (ix2 q k) := by
  refine (broadcastInDim_apply _ _ _ (ix2 p q) (ix2 (0 : Fin 1) q) fun a => ?_).trans ?_
  · match a with
    | ⟨0, _⟩ => rfl
    | ⟨1, _⟩ => rfl
  refine (broadcastInDim_apply _ _ _ (ix2 (0 : Fin 1) q) (ix1 q) fun a => ?_).trans ?_
  · match a with
    | ⟨0, _⟩ => rfl
  refine (shapeCast_apply _ _ (ix1 q) (ix2 q (0 : Fin 1)) ?_).trans ?_
  · rw [Shape.rowMajor_val_two, Shape.rowMajor_val_one]
    show q.val * 1 + 0 = q.val
    omega
  exact slice2_axis1_apply o CO h q (0 : Fin 1) k (by rw [hk]; rfl)

/-- Row r of the column numbers, as a vector of 16384. -/
abbrev idxRow (I : IVec S2x16384 32) (o : Nat) (h : S2x16384.Slices ![o, 0] S1x16384) : IVec S16384 32 :=
  fun i => shapeCast S16384 (extractStridedSlice S1x16384 ![o, 0] I h) shapeCasts_S1x16384_S16384 i

/-- It reads at q the column number (r, q). -/
theorem idxRow_apply (I : IVec S2x16384 32) (o : Nat) (r : Fin 2) (hr : r.val = o)
    (h : S2x16384.Slices ![o, 0] S1x16384) (q : Fin 16384) : idxRow I o h (ix1 q) = I (ix2 r q) :=
  (shapeCast_1a_a_apply _ _ q).trans (slice2_axis0_apply o I h (0 : Fin 1) q r (by rw [hr]; rfl))

/-- The gather of x's columns by row r of the column numbers, each first wrapped (a negative one moved up by 8192):
    at (p, q) it reads x at row p and the column the number (r, q) selects. -/
theorem gatherCol_apply (X : S4096x8192.Idx → α) (I : IVec S2x16384 32) (o : Nat) (r : Fin 2) (hr : r.val = o)
    (h : S2x16384.Slices ![o, 0] S1x16384) (p : Fin 4096) (q : Fin 16384) :
    Host.gather gather_S4096x8192_S16384x1_S4096x16384_0_1_n_n_1_1_40961 X
        (broadcastInDim S16384x1 ![0] bcast_S16384_S16384x1_0
          (select (cmpi CmpIPredicate.slt (idxRow I o h) (broadcastInDim S16384 ![] bcast_S_S16384 (constantI S_ 32 0#32)))
            (addi (idxRow I o h) (broadcastInDim S16384 ![] bcast_S_S16384 (constantI S_ 32 8192#32)))
            (idxRow I o h))) (ix2 p q)
      = X (ix2 p (Cert.Spec.col (I (ix2 r q)))) := by
  refine (Cert.LibGatherRead.gather_cols_apply (N := 8192) (by decide) _ rfl rfl rfl rfl rfl X _ p q).trans ?_
  refine congrArg (fun w => X (ix2 p (Cert.LibGatherRead.pos 8192 (by decide) w))) ?_
  refine (broadcastInDim_apply _ _ _ (ix2 q (0 : Fin 1)) (ix1 q) fun a => ?_).trans ?_
  · match a with
    | ⟨0, _⟩ => rfl
  show Scalar.select (IntOp.cmpi .slt (idxRow I o h (ix1 q)) 0#32) (IntOp.addi (idxRow I o h (ix1 q)) 8192#32) (idxRow I o h (ix1 q))
      = Cert.Spec.wrapW (I (ix2 r q))
  rw [idxRow_apply I o r hr h q]
  rfl

end Read

/-! ## The two stretches -/

section
variable {F : FTy → Type} [FloatOps F]

/-- After the first stretch the coefficient buffer holds the coefficient array of the gate logits … -/
theorem afterA_v13 (V : Valuation τ sig (Elt F)) :
    after opsA V (Proc.devRef .tc main_v13) = coeffs (V (Proc.devRef .tc main_arg1)) := by
  after_results_simp
  rfl
/-- … and the arguments are untouched. -/
theorem afterA_arg0 (V : Valuation τ sig (Elt F)) :
    after opsA V (Proc.devRef .tc main_arg0) = V (Proc.devRef .tc main_arg0) := by
  after_results_simp
theorem afterA_arg1 (V : Valuation τ sig (Elt F)) :
    after opsA V (Proc.devRef .tc main_arg1) = V (Proc.devRef .tc main_arg1) := by
  after_results_simp
theorem afterA_arg2 (V : Valuation τ sig (Elt F)) :
    after opsA V (Proc.devRef .tc main_arg2) = V (Proc.devRef .tc main_arg2) := by
  after_results_simp
theorem afterB_arg0 (V : Valuation τ sig (Elt F)) :
    after opsB V (Proc.devRef .tc main_arg0) = V (Proc.devRef .tc main_arg0) := by
  after_results_simp
theorem afterB_arg1 (V : Valuation τ sig (Elt F)) :
    after opsB V (Proc.devRef .tc main_arg1) = V (Proc.devRef .tc main_arg1) := by
  after_results_simp
theorem afterB_arg2 (V : Valuation τ sig (Elt F)) :
    after opsB V (Proc.devRef .tc main_arg2) = V (Proc.devRef .tc main_arg2) := by
  after_results_simp

end

/-- After the second stretch the result buffer holds the specification of x, the coefficient buffer and the column
    numbers as the stretch found them. -/
theorem afterB_v54 (V : Valuation τ sig (Elt Ideal)) :
    after opsB V (Proc.devRef .tc main_v54)
      = Cert.Spec.spec (V (Proc.devRef .tc main_arg0)) (V (Proc.devRef .tc main_v13)) (V (Proc.devRef .tc main_arg2)) := by
  after_results_simp
  generalize V (Proc.devRef .tc main_arg0) = X
  generalize V (Proc.devRef .tc main_v13) = CO
  generalize V (Proc.devRef .tc main_arg2) = I
  funext j
  obtain ⟨p, q, rfl⟩ : ∃ (p : Fin 4096) (q : Fin 16384), j = ix2 p q := ⟨j 0, j 1, eq_ix2 j⟩
  rw [Cert.Spec.spec_apply]
  unfold Cert.Spec.specAt
  simp only [addf_apply, mulf_apply]
  exact congrArg₂ (· + ·)
    (congrArg₂ (· + ·)
      (congrArg₂ (· + ·) (coefCol_apply CO 0 0 rfl _ p q)
        (congrArg₂ (· * ·) (coefCol_apply CO 1 1 rfl _ p q) (gatherCol_apply X I 0 0 rfl _ p q)))
      (congrArg₂ (· * ·) (coefCol_apply CO 2 2 rfl _ p q) (gatherCol_apply X I 1 1 rfl _ p q)))
    (congrArg₂ (· * ·) (coefCol_apply CO 3 3 rfl _ p q)
      (congrArg₂ (· * ·) (gatherCol_apply X I 0 0 rfl _ p q) (gatherCol_apply X I 1 1 rfl _ p q)))

/-- After all 64 operations the result buffer holds the specification of the arguments, the coefficient array that of
    the gate logits. -/
theorem after_v54 (V : Valuation τ sig (Elt Ideal)) :
    after ops V (Proc.devRef .tc main_v54)
      = Cert.Spec.spec (V (Proc.devRef .tc main_arg0)) (coeffs (F := Ideal) (V (Proc.devRef .tc main_arg1)))
          (V (Proc.devRef .tc main_arg2)) := by
  rw [after_append, afterB_v54, afterA_arg0, afterA_v13, afterA_arg2]
theorem after_arg0 (V : Valuation τ sig (Elt Ideal)) :
    after ops V (Proc.devRef .tc main_arg0) = V (Proc.devRef .tc main_arg0) := by
  rw [after_append, afterB_arg0, afterA_arg0]
theorem after_arg1 (V : Valuation τ sig (Elt Ideal)) :
    after ops V (Proc.devRef .tc main_arg1) = V (Proc.devRef .tc main_arg1) := by
  rw [after_append, afterB_arg1, afterA_arg1]
theorem after_arg2 (V : Valuation τ sig (Elt Ideal)) :
    after ops V (Proc.devRef .tc main_arg2) = V (Proc.devRef .tc main_arg2) := by
  rw [after_append, afterB_arg2, afterA_arg2]

/-- From any memory: every weakly fair execution of the reference terminates with its result at the specification of
    its arguments, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
          = Cert.Spec.spec (m ((c.tc : Thread nD τ).loc main_arg0)) (coeffs (F := Ideal) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v54).trans (after_v54 _), (h c main_arg0).trans (after_arg0 _),
      (h c main_arg1).trans (after_arg1 _), (h c main_arg2).trans (after_arg2 _)⟩)
    (run_seq scopedRefs_eq scopedSems_eq defs main (fun _ => ops) main_eq (fun _ => ops_sub) m ρ)

end Cert.ReferenceIdeal.RefValue

end
-- ==== Proof.lean ====
/-
  Both programs compute, for every batch row i and output column j, the bilinear form
      c0 j + ca j · a + cb j · b + cab j · (a · b),    a = x (i, col (idx (0, j))),   b = x (i, col (idx (1, j))),
  whose four coefficients are a softmax of the 16 gate logits of column j multiplied into a fixed [16, 4] table, and
  whose two entries of x are selected by two column numbers (a negative one wrapped by 8192, then clamped to [0, 8191]).

  The reference gathers the two entries. The kernel finds them with matrix products: over eight K-steps it accumulates
  the product of a tile of x with a one-hot tile built by comparing the tile's column numbers with the clamped column
  words; a row of x summed against a one-hot column is the entry at the selected column (a sum with one non-zero term,
  which holds on all of the extended reals), and the last K-step applies the bilinear form to the accumulator's halves.
  The coefficient arrays of the two programs are one term, never opened. The ideal pass rewrote nothing, so the kernel's
  idealization is its own text.
-/
import proofs.«405620_j34368328302783_3_alg».proof.Defs
import proofs.«405620_j34368328302783_3_alg».proof.Proof.Gen.Kernel
import proofs.«405620_j34368328302783_3_alg».proof.Proof.Gen.Kernel.Skeleton
import proofs.«405620_j34368328302783_3_alg».proof.Proof.Gen.Kernel.Launch
import proofs.«405620_j34368328302783_3_alg».proof.Proof.Gen.Kernel.Points
import proofs.«405620_j34368328302783_3_alg».proof.Proof.Gen.Kernel.Frame
import proofs.«405620_j34368328302783_3_alg».proof.Proof.Gen.KernelIdeal
import proofs.«405620_j34368328302783_3_alg».proof.Proof.Gen.KernelIdeal.Skeleton
import proofs.«405620_j34368328302783_3_alg».proof.Proof.Gen.KernelIdeal.Launch
import proofs.«405620_j34368328302783_3_alg».proof.Proof.Gen.KernelIdeal.Points
import proofs.«405620_j34368328302783_3_alg».proof.Proof.Gen.KernelIdeal.Frame
import proofs.«405620_j34368328302783_3_alg».proof.Proof.Gen.KernelIdeal.Value
import proofs.«405620_j34368328302783_3_alg».proof.Proof.Gen.ReferenceIdeal
import proofs.«405620_j34368328302783_3_alg».proof.Proof.Gen.Pre_finite_inputs
import proofs.«405620_j34368328302783_3_alg».proof.Proof.KernFinal
import proofs.«405620_j34368328302783_3_alg».proof.Proof.RefValue
import Idealize.ShloMosaic.Adequacy
import Idealize.ShloMosaic.Init

noncomputable section

namespace Cert.Proof

open Idealize.ShloMosaic Idealize.SL.Sem Cert.Kernel

/-- The two programs' coefficient arrays are the same operations of the same logits. -/
theorem coeffs_eq (W : FVec Ideal Cert.KernelIdeal.S16384x16 .f32) :
    Cert.ReferenceIdeal.RefValue.coeffs (F := Ideal) W = Cert.KernelIdeal.KHost.coeffs (F := Ideal) W := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end at the specification of their arguments; the arguments agree and the coefficient arrays are one term. -/
theorem algebraic : Cert.algebraic_KernelIdeal_ReferenceIdeal := by
  intro m ρ m' ρ' _ hagree
  refine ⟨fun c => Cert.KernelIdeal.KFinal.result m c, Cert.KernelIdeal.KFinal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2, coeffs_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
